-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S262144 : Shape := ⟨1, ![262144]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S262144 : S_.BroadcastsInDim S262144 (![] : Fin 0 → Fin S262144.rank)
  reducesTo_S262144_S_d0 : S262144.ReducesTo [0] S_

variable [Facts]

def fn_part2 {F : FTy → Type} [FloatOps F] (main_arg1 : IVec S262144 32) (main_v33 : IVec S_ 1) : IVec S_ 1 :=
  let main_c_12 : IVec S_ 32 := constantI S_ 32 0#32
  let main_v34 : IVec S262144 32 := broadcastInDim S262144 ![] bcast_S_S262144 main_c_12
  let main_v35 : IVec S262144 1 := cmpi .sge main_arg1 main_v34
  let main_c_13 : IVec S_ 1 := constantI S_ 1 1#1
  let main_v36 : IVec S_ 1 := (fun x v => Host.reduce IntOp.andi x v reducesTo_S262144_S_d0 h_S_) main_v35 main_c_13
  let main_v37 : IVec S_ 1 := andi main_v33 main_v36
  let main_c_14 : IVec S_ 32 := constantI S_ 32 4096#32
  let main_v38 : IVec S262144 32 := broadcastInDim S262144 ![] bcast_S_S262144 main_c_14
  let main_v39 : IVec S262144 1 := cmpi .slt main_arg1 main_v38
  let main_c_15 : IVec S_ 1 := constantI S_ 1 1#1
  let main_v40 : IVec S_ 1 := (fun x v => Host.reduce IntOp.andi x v reducesTo_S262144_S_d0 h_S_) main_v39 main_c_15
  let main_v41 : IVec S_ 1 := andi main_v37 main_v40
  main_v41

def fn_part1 {F : FTy → Type} [FloatOps F] (main_arg1 : IVec S262144 32) (main_arg5 : FVec F S256 .f32) (main_arg6 : FVec F S256x128 .f32) (main_arg7 : FVec F S128 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S4096x256 .f32) (main_arg1 : IVec S262144 32) (main_arg2 : FVec F S256x512 .f32) (main_arg3 : FVec F S512 .f32) (main_arg4 : FVec F S512x256 .f32) (main_arg5 : FVec F S256 .f32) (main_arg6 : FVec F S256x128 .f32) (main_arg7 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg1 main_arg5 main_arg6 main_arg7 main_v13 main_v16
-- ==== Kernel.lean ====
abbrev S4096x256 : Shape := ⟨2, ![4096, 256]⟩
abbrev S262144 : Shape := ⟨1, ![262144]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S4096x128 : Shape := ⟨2, ![4096, 128]⟩
abbrev S1024x256 : Shape := ⟨2, ![1024, 256]⟩
abbrev S1024x128 : Shape := ⟨2, ![1024, 128]⟩
abbrev S1024x512 : Shape := ⟨2, ![1024, 512]⟩
abbrev S1x512 : Shape := ⟨2, ![1, 512]⟩
abbrev S1x256 : Shape := ⟨2, ![1, 256]⟩
abbrev S1x128 : Shape := ⟨2, ![1, 128]⟩
abbrev S262144x128 : Shape := ⟨2, ![262144, 128]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S262144, .i32⟩
  | .hbm, ⟨2, _⟩ => ⟨S256x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S4096x128, .f32⟩
  | .hbm, ⟨9, _⟩ => ⟨S4096x128, .bf16⟩
  | .hbm, ⟨10, _⟩ => ⟨S262144x128, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S512, .f32⟩
  | .local _ .vmem, ⟨4, _⟩ => ⟨S512x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S1024x128, .f32⟩
  | .local _ .vmem, ⟨9, _⟩ => ⟨S1024x128, .f32⟩
  | .local _ .vmem, ⟨10, _⟩ => ⟨S1024, .i32⟩
  | .local _ .vmem, ⟨11, _⟩ => ⟨S1024, .i32⟩
  | .local _ .vmem, ⟨12, _⟩ => ⟨S1024x128, .bf16⟩
  | .local _ .vmem, ⟨13, _⟩ => ⟨S1024x128, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![256, 4], ![false, false]⟩

def k1_cond2 (i : grid1.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_7 : BitVec 32 := 0#32
  let v24 : BitVec 1 := Scalar.cmpi .ne v23 c0_i32_7
  v24

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024_S1024_0 : ∀ a, (![0] : Fin 1 → Nat) a + S1024.size a ≤ S1024.size a
  h_S1024 : 0 < S1024.numel
  shapeCasts_S1024_S1024x1 : S1024.ShapeCasts S1024x1
  iota_S1024x1024_d1_w32 : S1024x1024.Iotas .tc 32 [1]
  broadcasts_S1024x1_S1024x1024 : S1024x1.Broadcasts S1024x1024
  natLt_1_32 : 1 < 32
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S4096x128.size a
  hwx0_7 : ∀ i : grid0.Coords, EltTy.bits .f32 = 32 ∨ (Rect.block (s := S4096x128) S1024x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024.size a ≤ S262144.size a
  hwx1_0 : ∀ i : grid1.Coords, EltTy.bits .i32 = 32 ∨ (Rect.block (s := S262144) S1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .bf16 = 32 ∨ (Rect.block (s := S4096x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S262144x128.size a
  hwx1_2 : ∀ i : grid1.Coords, EltTy.bits .f32 = 32 ∨ (Rect.block (s := S262144x128) S1024x128.size (cc1_transform_2 i) (hinb1_2 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S262144 : Shape := ⟨1, ![262144]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S4096x512 : Shape := ⟨2, ![4096, 512]⟩
abbrev S1x512 : Shape := ⟨2, ![1, 512]⟩
abbrev S_ : Shape := ⟨0, ![]⟩
abbrev S262144x1 : Shape := ⟨2, ![262144, 1]⟩
abbrev S262144x512 : Shape := ⟨2, ![262144, 512]⟩
abbrev S262144x256 : Shape := ⟨2, ![262144, 256]⟩
abbrev S1x256 : Shape := ⟨2, ![1, 256]⟩
abbrev S262144x128 : Shape := ⟨2, ![262144, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S262144, .i32⟩
  | .hbm, ⟨2, _⟩ => ⟨S256x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S4096x512, .f32⟩
  | .hbm, ⟨9, _⟩ => ⟨S1x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x512, .f32⟩
  | .hbm, ⟨24, _⟩ => ⟨S262144x256, .f32⟩
  | .hbm, ⟨25, _⟩ => ⟨S1x256, .f32⟩
  | .hbm, ⟨26, _⟩ => ⟨S262144x256, .f32⟩
  | .hbm, ⟨27, _⟩ => ⟨S262144x256, .f32⟩
  | .hbm, ⟨28, _⟩ => ⟨S_, .f32⟩
  | .hbm, ⟨29, _⟩ => ⟨S262144x256, .f32⟩
  | .hbm, ⟨30, _⟩ => ⟨S262144x256, .f32⟩
  | .hbm, ⟨31, _⟩ => ⟨S262144x128, .f32⟩
  | .hbm, ⟨32, _⟩ => ⟨S1x128, .f32⟩
  | .hbm, ⟨33, _⟩ => ⟨S262144x128, .f32⟩
  | .hbm, ⟨34, _⟩ => ⟨S262144x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S_S262144 : S_.BroadcastsInDim S262144 (![] : Fin 0 → Fin S262144.rank)
  bcast_S262144_S262144x1_0 : S262144.BroadcastsInDim S262144x1 (![0] : Fin 1 → Fin S262144x1.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S4096x256_S256x512_S4096x512_1_0_0_1_n_n_wf : DotDims.WF S4096x256 S256x512 S4096x512 [1] [0] [0] [1] [] []
  gather_S4096x512_S262144x1_S262144x512_1_0_n_n_0_1_1512_wf : GatherDims.WF S4096x512 S262144x1 S262144x512 [1] [0] [] [0] [] 1 ![1, 512]
  dot_S262144x512_S512x256_S262144x256_1_0_0_1_n_n_wf : DotDims.WF S262144x512 S512x256 S262144x256 [1] [0] [0] [1] [] []
  dot_S262144x256_S256x128_S262144x128_1_0_0_1_n_n_wf : DotDims.WF S262144x256 S256x128 S262144x128 [1] [0] [0] [1] [] []

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def gather_S4096x512_S262144x1_S262144x512_1_0_n_n_0_1_1512 : GatherDims S4096x512 S262144x1 S262144x512 where
  offsetDims := [1]
  collapsedSliceDims := [0]
  operandBatchingDims := []
  startIndicesBatchingDims := []
  startIndexMap := [0]
  indexVectorDim := 1
  sliceSizes := ![1, 512]
  wf := gather_S4096x512_S262144x1_S262144x512_1_0_n_n_0_1_1512_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf

class Facts : Prop extends Facts₀ where

variable [Facts]
-- ==== Proof.KRegion1.lean ====
/-
  The second kernel region (the segment broadcast: 256 blocks of 1024 nodes, each visited four times, once per block
  of 1024 table rows) as a pipeline with proof data. The body keeps an accumulator in a scratch buffer across the
  four visits of a node block: it is zeroed at the first visit, grows at every visit by the one-hot product with
  the table block in view (the payload `k1_pay2`), and is copied into the output window's buffer at the fourth,
  the only visit after which the pipeline writes that buffer back. The region invariant therefore says what the
  scratch holds between two visits of the same node block: what the visit before left.
-/
import proofs.«426879_j16260746183171_1_alg».proof.Proof.Gen.Kernel.Launch
import proofs.«426879_j16260746183171_1_alg».proof.Proof.Gen.Kernel.Skeleton
import proofs.«426879_j16260746183171_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Spread

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz1 : (![0] : Fin 1 → ℕ) = fun _ => 0 := by funext a; fin_cases a; rfl

/-! ## The two branches of the body, decided over the grid -/

/-- The body zeroes the accumulator exactly when the second grid coordinate is 0, -/
abbrev isFirst (i : grid1.Coords) : Prop := (Scalar.cmpi .ne (Scalar.extui (Scalar.cmpi .eq (BitVec.ofNat 32 (i 1).val) 0#32)) 0#32) = 1#1
/-- and copies it out exactly when it is 3. -/
abbrev isLast (i : grid1.Coords) : Prop := k1_cond2 i = 1#1

theorem first_iff : ∀ t : Fin cfg1.N, isFirst (grid1.coords t) ↔ t.val % 4 = 0 :=
  (by decide +kernel : ∀ t : Fin grid1.N, isFirst (grid1.coords t) ↔ t.val % 4 = 0)
theorem last_iff : ∀ t : Fin cfg1.N, isLast (grid1.coords t) ↔ t.val % 4 = 3 :=
  (by decide +kernel : ∀ t : Fin grid1.N, isLast (grid1.coords t) ↔ t.val % 4 = 3)

/-- The input windows are never idle; the output window is idle, and not written back, wherever the body does not
    copy the accumulator out. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
theorem live1_2 : ∀ t : Fin cfg1.N, isLast (grid1.coords t) → cfg1.idle 2 (grid1.coords t) = false := by decide +kernel

/-! ## The body on whole buffers, one triple per kind of visit -/

set_option maxHeartbeats 4000000 in
/-- FIRST visit of a node block: whatever the scratch held, it ends at one step from zero; the output buffer is untouched. -/
theorem run_first (c : Dev nD) (E : Set ℕ) (i : grid1.Coords)
    (arg2 : Memref sig .tc .vmem S1024 .i32) (harg2 : arg2.IsWhole) (arg3 : Memref sig .tc .vmem S1024x128 .bf16) (harg3 : arg3.IsWhole)
    (arg4 : Memref sig .tc .vmem S1024x128 .f32) (harg4 : arg4.IsWhole) (arg5 : Memref sig .tc .vmem S1024x128 .f32) (harg5 : arg5.IsWhole)
    (h0 : isFirst i) (h1 : ¬isLast i)
    (x0 : Vec F S1024 .i32) (x1 : Vec F S1024x128 .bf16) (xo : Vec F S1024x128 .f32) (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (k1_pay2 i x0 (k1_pay1 (F := F)) x1)) -∗ K ⟨⟩))
      ⊢ wp frame (wpE (defs₀ (F := F)) Variants.none c none) E (cc1__broadcast_kernel i arg2 harg2 arg3 harg3 arg4 harg4 arg5 harg5) K := by
  simp only [cc1__broadcast_kernel_eq_skeleton]; unfold cc1__broadcast_kernel_skel
  unfold owns
  iintro ⟨⟨%f0, %hf0, H0⟩, ⟨%f1, %hf1, H1⟩, ⟨%f2, %hf2, H2⟩, ⟨%d5, %f5, -, H5⟩, Hk⟩
  subst hf0; subst hf1; subst hf2
  sl_exec (disch := first | exact h0 | exact h1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_words
  rw [View.read_writes_eq_canon _ _ _ (fun y => ⟨_, List.mem_cons_self, View.mem_set_unit_zero hz2 inb_S1024x128_S1024x128_0_0 y⟩)]
  rw [View.canon_cons_unit_zero (S := S1024x128) hz2]
  simp only [View.readAt_eq_ld, View.ld_unit_zero (S := S1024x128) hz2, View.ld_unit_zero (S := S1024) hz1, View.readCov_unit_zero (S := S1024x128) _ hz2]

set_option maxHeartbeats 4000000 in
/-- A MIDDLE visit: the scratch goes one step on from what it held; the output buffer is untouched. -/
theorem run_mid (c : Dev nD) (E : Set ℕ) (i : grid1.Coords)
    (arg2 : Memref sig .tc .vmem S1024 .i32) (harg2 : arg2.IsWhole) (arg3 : Memref sig .tc .vmem S1024x128 .bf16) (harg3 : arg3.IsWhole)
    (arg4 : Memref sig .tc .vmem S1024x128 .f32) (harg4 : arg4.IsWhole) (arg5 : Memref sig .tc .vmem S1024x128 .f32) (harg5 : arg5.IsWhole)
    (h0 : ¬isFirst i) (h1 : ¬isLast i)
    (x0 : Vec F S1024 .i32) (x1 : Vec F S1024x128 .bf16) (xo : Vec F S1024x128 .f32) (xs : Vec F S1024x128 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k1_pay2 i x0 xs x1)) -∗ K ⟨⟩))
      ⊢ wp frame (wpE (defs₀ (F := F)) Variants.none c none) E (cc1__broadcast_kernel i arg2 harg2 arg3 harg3 arg4 harg4 arg5 harg5) K := by
  simp only [cc1__broadcast_kernel_eq_skeleton]; unfold cc1__broadcast_kernel_skel
  unfold owns
  iintro ⟨⟨%f0, %hf0, H0⟩, ⟨%f1, %hf1, H1⟩, ⟨%f2, %hf2, H2⟩, ⟨%f5, %hf5, H5⟩, Hk⟩
  subst hf0; subst hf1; subst hf2; subst hf5
  sl_exec (disch := first | exact h0 | exact h1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_words
  rw [View.read_writes_eq_canon _ _ _ (fun y => ⟨_, List.mem_cons_self, View.mem_set_unit_zero hz2 inb_S1024x128_S1024x128_0_0 y⟩)]
  rw [View.canon_cons_unit_zero (S := S1024x128) hz2]
  simp only [View.readAt_eq_ld, View.ld_unit_zero (S := S1024x128) hz2, View.ld_unit_zero (S := S1024) hz1, View.readCov_unit_zero (S := S1024x128) _ hz2]

set_option maxHeartbeats 4000000 in
/-- The LAST visit: the scratch goes one step on and the output buffer ends holding that same value. -/
theorem run_last (c : Dev nD) (E : Set ℕ) (i : grid1.Coords)
    (arg2 : Memref sig .tc .vmem S1024 .i32) (harg2 : arg2.IsWhole) (arg3 : Memref sig .tc .vmem S1024x128 .bf16) (harg3 : arg3.IsWhole)
    (arg4 : Memref sig .tc .vmem S1024x128 .f32) (harg4 : arg4.IsWhole) (arg5 : Memref sig .tc .vmem S1024x128 .f32) (harg5 : arg5.IsWhole)
    (h0 : ¬isFirst i) (h1 : isLast i)
    (x0 : Vec F S1024 .i32) (x1 : Vec F S1024x128 .bf16) (xs : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 i x0 xs x1)
            ∗ owns (c : Thread nD τ) arg5 fullShare (k1_pay2 i x0 xs x1)) -∗ K ⟨⟩))
      ⊢ wp frame (wpE (defs₀ (F := F)) Variants.none c none) E (cc1__broadcast_kernel i arg2 harg2 arg3 harg3 arg4 harg4 arg5 harg5) K := by
  simp only [cc1__broadcast_kernel_eq_skeleton]; unfold cc1__broadcast_kernel_skel
  unfold owns
  iintro ⟨⟨%f0, %hf0, H0⟩, ⟨%f1, %hf1, H1⟩, ⟨%d2, %f2, -, H2⟩, ⟨%f5, %hf5, H5⟩, Hk⟩
  subst hf0; subst hf1; subst hf5
  sl_exec (disch := first | exact h0 | exact h1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self, View.mem_set_unit_zero hz2 inb_S1024x128_S1024x128_0_0 y⟩)]
    rw [View.canon_cons_unit_zero (S := S1024x128) hz2]
    simp only [View.readAt_eq_ld, View.ld_unit_zero (S := S1024x128) hz2, View.ld_unit_zero (S := S1024) hz1, View.readCov_unit_zero (S := S1024x128) _ hz2]
  iexists _; isplitr
  swap; · iexact H5
  ipureintro
  sl_unfold_words
  rw [View.read_writes_eq_canon _ _ _ (fun y => ⟨_, List.mem_cons_self, View.mem_set_unit_zero hz2 inb_S1024x128_S1024x128_0_0 y⟩)]
  rw [View.canon_cons_unit_zero (S := S1024x128) hz2]
  simp only [View.readAt_eq_ld, View.ld_unit_zero (S := S1024x128) hz2, View.ld_unit_zero (S := S1024) hz1, View.readCov_unit_zero (S := S1024x128) _ hz2]

/-! ## The blocks, the accumulator, the invariant -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The segment ids of the node block in view at `t`, and the table rows in view there. -/
abbrev segBlk (c : Dev nD) (t : Fin cfg1.N) : Vec F S1024 .i32 := iblk1 V c 0 t
abbrev tabBlk (c : Dev nD) (t : Fin cfg1.N) : Vec F S1024x128 .bf16 := iblk1 V c 1 t

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Position `n` as a grid point (positions past the grid wrap; only positions inside it are ever used). -/
def pt (n : ℕ) : Fin cfg1.N := ⟨n % cfg1.N, Nat.mod_lt _ (by rw [show cfg1.N = 1024 from N_1]; decide)⟩
theorem pt_val (t : Fin cfg1.N) : pt t.val = t := Fin.ext (Nat.mod_eq_of_lt t.isLt)

/-- THE ACCUMULATOR after the body at position `n`: one step on from zero at the first visit of a node block, one step
    on from what the position before left otherwise. -/
def acc (c : Dev nD) : ℕ → Vec F S1024x128 .f32
  | 0 => k1_pay2 (grid1.coords (pt 0)) (segBlk V c (pt 0)) (k1_pay1 (F := F)) (tabBlk V c (pt 0))
  | n + 1 => k1_pay2 (grid1.coords (pt (n + 1))) (segBlk V c (pt (n + 1)))
      (if (n + 1) % 4 = 0 then k1_pay1 (F := F) else acc c n) (tabBlk V c (pt (n + 1)))

theorem acc_first (c : Dev nD) (t : Fin cfg1.N) (h : t.val % 4 = 0) :
    acc V c t.val = k1_pay2 (grid1.coords t) (segBlk V c t) (k1_pay1 (F := F)) (tabBlk V c t) := by
  obtain ⟨n, hn⟩ := t
  have e : pt n = ⟨n, hn⟩ := pt_val ⟨n, hn⟩
  cases n with
  | zero => show k1_pay2 (grid1.coords (pt 0)) (segBlk V c (pt 0)) (k1_pay1 (F := F)) (tabBlk V c (pt 0)) = _; rw [e]
  | succ n =>
    show k1_pay2 (grid1.coords (pt (n + 1))) (segBlk V c (pt (n + 1))) (if (n + 1) % 4 = 0 then k1_pay1 (F := F) else acc V c n) (tabBlk V c (pt (n + 1))) = _
    rw [e, if_pos h]

theorem acc_next (c : Dev nD) (t : Fin cfg1.N) (h : ¬t.val % 4 = 0) :
    acc V c t.val = k1_pay2 (grid1.coords t) (segBlk V c t) (acc V c (t.val - 1)) (tabBlk V c t) := by
  obtain ⟨n, hn⟩ := t
  have e : pt n = ⟨n, hn⟩ := pt_val ⟨n, hn⟩
  cases n with
  | zero => exact absurd (Nat.zero_mod 4) h
  | succ n =>
    show k1_pay2 (grid1.coords (pt (n + 1))) (segBlk V c (pt (n + 1))) (if (n + 1) % 4 = 0 then k1_pay1 (F := F) else acc V c n) (tabBlk V c (pt (n + 1))) = _
    rw [e, if_neg h]; rfl

/-- The scratch operand: a whole scoped buffer of the kernel's own. -/
abbrev scM : Memref sig .tc .vmem S1024x128 .f32 := Memref.whole cc1_scratch0

/-- The core's other scoped buffers no window of this region stages (the first region's staging buffers): each whole,
    at some contents, untouched here. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

theorem rest_split (c : Dev nD) :
    (Pipeline.scopedRest (Ix := Unit) (Name := ℕ) (U := UR sig nD τ) (Lvl := ℕ) (Val := Elt F) spec1 c : sProp 𝕄)
      ⊢ iprop(others (F := F) c ∗ ∃ d, owns (c : Thread nD τ) scM fullShare d) := by
  rw [scopedRest1_eq]; unfold others; simp only [scM, owns_whole]
  iintro ⟨B0, B1, B2, B3, B4, B5, B6, B7, B8, B9, HS⟩
  isplitr [HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  iexact HS

theorem rest_join (c : Dev nD) :
    iprop(others (F := F) c ∗ ∃ d, owns (c : Thread nD τ) scM fullShare d)
      ⊢ (Pipeline.scopedRest (Ix := Unit) (Name := ℕ) (U := UR sig nD τ) (Lvl := ℕ) (Val := Elt F) spec1 c : sProp 𝕄) := by
  rw [scopedRest1_eq]; unfold others; simp only [scM, owns_whole]
  iintro ⟨⟨B0, B1, B2, B3, B4, B5, B6, B7, B8, B9⟩, HS⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact HS

/-- THE INVARIANT before position `n`: the other scoped buffers at anything, the generator register at some state, and
    the scratch at some contents — which, unless `n` starts a node block, are what position `n − 1` left. -/
def inv (c : Dev nD) (n : ℕ) : sProp 𝕄 :=
  iprop(others (F := F) c ∗ (∃ d, owns (c : Thread nD τ) scM fullShare d ∗ ⌜¬n % 4 = 0 → d = acc V c (n - 1)⌝) ∗ ∃ r, prngReg c r)

/-! ## The pipeline's proof data -/

/-- The proof data of the second pipeline on core `c`: the arrays as the region finds them; after the body at point `t`
    each input's buffer at its block and the output's at the accumulator (consulted only at the last visit of a node
    block, the one point where the window is live and written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc V c t.val
  Φ t := inv V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc V c t.val := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the launch hands the region is the invariant before the first point: position 0 starts a node block. -/
theorem hin1 (c : Dev nD) : Pipeline.ΦA spec1 c ⊢ (dat1 V c).Φ 0 := by
  show Pipeline.ΦA spec1 c ⊢ inv V c 0
  unfold Pipeline.ΦA inv
  iintro ⟨Hs, Hg⟩
  ihave H := rest_split (F := F) c $$ Hs
  icases H with ⟨Ho, ⟨%d, HS⟩⟩
  isplitl [Ho]; · iexact Ho
  isplitl [HS]
  · iexists d; isplitl [HS]; · iexact HS
    ipureintro; intro h; exact absurd (Nat.zero_mod 4) h
  iexact Hg

/-- The invariant at any position gives the class's back: the scratch's contents are forgotten. -/
theorem inv_out (c : Dev nD) (n : ℕ) : inv V c n ⊢ Pipeline.ΦA spec1 c := by
  unfold Pipeline.ΦA inv
  iintro ⟨Ho, ⟨%d, HS, -⟩, Hg⟩
  isplitr [Hg]
  · iapply (rest_join (F := F) c)
    isplitl [Ho]; · iexact Ho
    iexists d; iexact HS
  iexact Hg

theorem hout1 (c : Dev nD) : (dat1 V c).Φ (Fin.last cfg1.N) ⊢ Pipeline.ΦA spec1 c := inv_out V c _

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the kind of visit: the inputs' memrefs hold their blocks; the invariant hands the scratch
    over at what the visit before left (at anything at a first visit) and takes it back one step on; at the last visit
    the output buffer is left at the accumulator, elsewhere as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.castSucc = inv V c t.val from rfl,
    show (dat1 V c).Φ t.succ = inv V c (t.val + 1) from rfl,
    show (dat1 V c).leavesExact 0 t = owns (c : Thread nD τ) (st1_0 t) fullShare ((dat1 V c).after 0 t) from by
      unfold Dat.leavesExact; rw [live1_0 t],
    show (dat1 V c).leavesExact 1 t = owns (c : Thread nD τ) (st1_1 t) fullShare ((dat1 V c).after 1 t) from by
      unfold Dat.leavesExact; rw [live1_1 t],
    after1_0, after1_1]
  unfold inv
  by_cases hl : t.val % 4 = 3
  · have hf : ¬t.val % 4 = 0 := by omega
    rw [show (dat1 V c).leavesExact 2 t = owns (c : Thread nD τ) (st1_2 t) fullShare ((dat1 V c).after 2 t) from by
      unfold Dat.leavesExact; rw [live1_2 t ((last_iff t).mpr hl)], after1_2, acc_next V c t hf]
    iintro ⟨⟨Ho, ⟨%d, HS, %hd⟩, Hg⟩, Hw, ⟨%d0, H0⟩, ⟨%d1, H1⟩, ⟨%d2, H2⟩⟩
    obtain rfl := hd hf
    iapply (run_last c Set.univ (grid1.coords t) _ _ _ _ _ _ _ _ (fun h => hf ((first_iff t).mp h)) ((last_iff t).mpr hl)
      (segBlk V c t) (tabBlk V c t) (acc V c (t.val - 1)) _)
    isplitl [H0]; · iexact H0
    isplitl [H1]; · iexact H1
    isplitl [H2]; · iexists _; iexact H2
    isplitl [HS]; · iexact HS
    iintro ⟨H0, H1, H2, HS⟩
    isplitl [Ho HS Hg]
    · isplitl [Ho]; · iexact Ho
      isplitl [HS]
      · iexists _; isplitl [HS]; · iexact HS
        ipureintro; intro _; rw [Nat.add_sub_cancel, acc_next V c t hf]
      iexact Hg
    isplitl [Hw]; · iexact Hw
    isplitl [H0]; · iexact H0
    isplitl [H1]; · iexact H1
    iexact H2
  · have hnl : ¬isLast (grid1.coords t) := fun h => hl ((last_iff t).mp h)
    rw [Dat.leavesExact_idle (dat1 V c) 2 t (idle1_2 t hnl) (noFlush1_2 t hnl)]
    by_cases hf : t.val % 4 = 0
    · iintro ⟨⟨Ho, ⟨%d, HS, -⟩, Hg⟩, Hw, ⟨%d0, H0⟩, ⟨%d1, H1⟩, ⟨%d2, H2⟩⟩
      iapply (run_first c Set.univ (grid1.coords t) _ _ _ _ _ _ _ _ ((first_iff t).mpr hf) hnl
        (segBlk V c t) (tabBlk V c t) ((dat1 V c).before 2 t d2) _)
      isplitl [H0]; · iexact H0
      isplitl [H1]; · iexact H1
      isplitl [H2]; · iexact H2
      isplitl [HS]; · iexists _; iexact HS
      iintro ⟨H0, H1, H2, HS⟩
      isplitl [Ho HS Hg]
      · isplitl [Ho]; · iexact Ho
        isplitl [HS]
        · iexists _; isplitl [HS]; · iexact HS
          ipureintro; intro _; rw [Nat.add_sub_cancel, acc_first V c t hf]
        iexact Hg
      isplitl [Hw]; · iexact Hw
      isplitl [H0]; · iexact H0
      isplitl [H1]; · iexact H1
      iexists d2; iexact H2
    · iintro ⟨⟨Ho, ⟨%d, HS, %hd⟩, Hg⟩, Hw, ⟨%d0, H0⟩, ⟨%d1, H1⟩, ⟨%d2, H2⟩⟩
      obtain rfl := hd hf
      iapply (run_mid c Set.univ (grid1.coords t) _ _ _ _ _ _ _ _ (fun h => hf ((first_iff t).mp h)) hnl
        (segBlk V c t) (tabBlk V c t) ((dat1 V c).before 2 t d2) (acc V c (t.val - 1)) _)
      isplitl [H0]; · iexact H0
      isplitl [H1]; · iexact H1
      isplitl [H2]; · iexact H2
      isplitl [HS]; · iexact HS
      iintro ⟨H0, H1, H2, HS⟩
      isplitl [Ho HS Hg]
      · isplitl [Ho]; · iexact Ho
        isplitl [HS]
        · iexists _; isplitl [HS]; · iexact HS
          ipureintro; intro _; rw [Nat.add_sub_cancel, acc_next V c t hf]
        iexact Hg
      isplitl [Hw]; · iexact Hw
      isplitl [H0]; · iexact H0
      isplitl [H1]; · iexact H1
      iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Spread

end
-- ==== Proof.Region1.lean ====
/-
  The second kernel region (the segment broadcast: 256 blocks of 1024 nodes, each visited four times, once per block
  of 1024 table rows) as a pipeline with proof data. The body keeps an accumulator in a scratch buffer across the
  four visits of a node block: it is zeroed at the first visit, grows at every visit by the one-hot product with
  the table block in view (the payload `k1_pay2`), and is copied into the output window's buffer at the fourth,
  the only visit after which the pipeline writes that buffer back. The region invariant therefore says what the
  scratch holds between two visits of the same node block: what the visit before left.
-/
import proofs.«426879_j16260746183171_1_alg».proof.Proof.Gen.KernelIdeal.Launch
import proofs.«426879_j16260746183171_1_alg».proof.Proof.Gen.KernelIdeal.Skeleton
import proofs.«426879_j16260746183171_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Spread

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz1 : (![0] : Fin 1 → ℕ) = fun _ => 0 := by funext a; fin_cases a; rfl

/-! ## The two branches of the body, decided over the grid -/

/-- The body zeroes the accumulator exactly when the second grid coordinate is 0, -/
abbrev isFirst (i : grid1.Coords) : Prop := (Scalar.cmpi .ne (Scalar.extui (Scalar.cmpi .eq (BitVec.ofNat 32 (i 1).val) 0#32)) 0#32) = 1#1
/-- and copies it out exactly when it is 3. -/
abbrev isLast (i : grid1.Coords) : Prop := k1_cond2 i = 1#1

theorem first_iff : ∀ t : Fin cfg1.N, isFirst (grid1.coords t) ↔ t.val % 4 = 0 :=
  (by decide +kernel : ∀ t : Fin grid1.N, isFirst (grid1.coords t) ↔ t.val % 4 = 0)
theorem last_iff : ∀ t : Fin cfg1.N, isLast (grid1.coords t) ↔ t.val % 4 = 3 :=
  (by decide +kernel : ∀ t : Fin grid1.N, isLast (grid1.coords t) ↔ t.val % 4 = 3)

/-- The input windows are never idle; the output window is idle, and not written back, wherever the body does not
    copy the accumulator out. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬isLast (grid1.coords t) → cfg1.idle 2 (grid1.coords t) = true := by decide +kernel
theorem noFlush1_2 : ∀ t : Fin cfg1.N, ¬isLast (grid1.coords t) → (cfg1.win 2).flush t = false := by decide +kernel
theorem live1_2 : ∀ t : Fin cfg1.N, isLast (grid1.coords t) → cfg1.idle 2 (grid1.coords t) = false := by decide +kernel

/-! ## The body on whole buffers, one triple per kind of visit -/

set_option maxHeartbeats 4000000 in
/-- FIRST visit of a node block: whatever the scratch held, it ends at one step from zero; the output buffer is untouched. -/
theorem run_first (c : Dev nD) (E : Set ℕ) (i : grid1.Coords)
    (arg2 : Memref sig .tc .vmem S1024 .i32) (harg2 : arg2.IsWhole) (arg3 : Memref sig .tc .vmem S1024x128 .bf16) (harg3 : arg3.IsWhole)
    (arg4 : Memref sig .tc .vmem S1024x128 .f32) (harg4 : arg4.IsWhole) (arg5 : Memref sig .tc .vmem S1024x128 .f32) (harg5 : arg5.IsWhole)
    (h0 : isFirst i) (h1 : ¬isLast i)
    (x0 : Vec F S1024 .i32) (x1 : Vec F S1024x128 .bf16) (xo : Vec F S1024x128 .f32) (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (k1_pay2 i x0 (k1_pay1 (F := F)) x1)) -∗ K ⟨⟩))
      ⊢ wp frame (wpE (defs₀ (F := F)) Variants.none c none) E (cc1__broadcast_kernel i arg2 harg2 arg3 harg3 arg4 harg4 arg5 harg5) K := by
  simp only [cc1__broadcast_kernel_eq_skeleton]; unfold cc1__broadcast_kernel_skel
  unfold owns
  iintro ⟨⟨%f0, %hf0, H0⟩, ⟨%f1, %hf1, H1⟩, ⟨%f2, %hf2, H2⟩, ⟨%d5, %f5, -, H5⟩, Hk⟩
  subst hf0; subst hf1; subst hf2
  sl_exec (disch := first | exact h0 | exact h1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_words
  rw [View.read_writes_eq_canon _ _ _ (fun y => ⟨_, List.mem_cons_self, View.mem_set_unit_zero hz2 inb_S1024x128_S1024x128_0_0 y⟩)]
  rw [View.canon_cons_unit_zero (S := S1024x128) hz2]
  simp only [View.readAt_eq_ld, View.ld_unit_zero (S := S1024x128) hz2, View.ld_unit_zero (S := S1024) hz1, View.readCov_unit_zero (S := S1024x128) _ hz2]

set_option maxHeartbeats 4000000 in
/-- A MIDDLE visit: the scratch goes one step on from what it held; the output buffer is untouched. -/
theorem run_mid (c : Dev nD) (E : Set ℕ) (i : grid1.Coords)
    (arg2 : Memref sig .tc .vmem S1024 .i32) (harg2 : arg2.IsWhole) (arg3 : Memref sig .tc .vmem S1024x128 .bf16) (harg3 : arg3.IsWhole)
    (arg4 : Memref sig .tc .vmem S1024x128 .f32) (harg4 : arg4.IsWhole) (arg5 : Memref sig .tc .vmem S1024x128 .f32) (harg5 : arg5.IsWhole)
    (h0 : ¬isFirst i) (h1 : ¬isLast i)
    (x0 : Vec F S1024 .i32) (x1 : Vec F S1024x128 .bf16) (xo : Vec F S1024x128 .f32) (xs : Vec F S1024x128 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k1_pay2 i x0 xs x1)) -∗ K ⟨⟩))
      ⊢ wp frame (wpE (defs₀ (F := F)) Variants.none c none) E (cc1__broadcast_kernel i arg2 harg2 arg3 harg3 arg4 harg4 arg5 harg5) K := by
  simp only [cc1__broadcast_kernel_eq_skeleton]; unfold cc1__broadcast_kernel_skel
  unfold owns
  iintro ⟨⟨%f0, %hf0, H0⟩, ⟨%f1, %hf1, H1⟩, ⟨%f2, %hf2, H2⟩, ⟨%f5, %hf5, H5⟩, Hk⟩
  subst hf0; subst hf1; subst hf2; subst hf5
  sl_exec (disch := first | exact h0 | exact h1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H5
  ipureintro
  sl_unfold_words
  rw [View.read_writes_eq_canon _ _ _ (fun y => ⟨_, List.mem_cons_self, View.mem_set_unit_zero hz2 inb_S1024x128_S1024x128_0_0 y⟩)]
  rw [View.canon_cons_unit_zero (S := S1024x128) hz2]
  simp only [View.readAt_eq_ld, View.ld_unit_zero (S := S1024x128) hz2, View.ld_unit_zero (S := S1024) hz1, View.readCov_unit_zero (S := S1024x128) _ hz2]

set_option maxHeartbeats 4000000 in
/-- The LAST visit: the scratch goes one step on and the output buffer ends holding that same value. -/
theorem run_last (c : Dev nD) (E : Set ℕ) (i : grid1.Coords)
    (arg2 : Memref sig .tc .vmem S1024 .i32) (harg2 : arg2.IsWhole) (arg3 : Memref sig .tc .vmem S1024x128 .bf16) (harg3 : arg3.IsWhole)
    (arg4 : Memref sig .tc .vmem S1024x128 .f32) (harg4 : arg4.IsWhole) (arg5 : Memref sig .tc .vmem S1024x128 .f32) (harg5 : arg5.IsWhole)
    (h0 : ¬isFirst i) (h1 : isLast i)
    (x0 : Vec F S1024 .i32) (x1 : Vec F S1024x128 .bf16) (xs : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 i x0 xs x1)
            ∗ owns (c : Thread nD τ) arg5 fullShare (k1_pay2 i x0 xs x1)) -∗ K ⟨⟩))
      ⊢ wp frame (wpE (defs₀ (F := F)) Variants.none c none) E (cc1__broadcast_kernel i arg2 harg2 arg3 harg3 arg4 harg4 arg5 harg5) K := by
  simp only [cc1__broadcast_kernel_eq_skeleton]; unfold cc1__broadcast_kernel_skel
  unfold owns
  iintro ⟨⟨%f0, %hf0, H0⟩, ⟨%f1, %hf1, H1⟩, ⟨%d2, %f2, -, H2⟩, ⟨%f5, %hf5, H5⟩, Hk⟩
  subst hf0; subst hf1; subst hf5
  sl_exec (disch := first | exact h0 | exact h1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self, View.mem_set_unit_zero hz2 inb_S1024x128_S1024x128_0_0 y⟩)]
    rw [View.canon_cons_unit_zero (S := S1024x128) hz2]
    simp only [View.readAt_eq_ld, View.ld_unit_zero (S := S1024x128) hz2, View.ld_unit_zero (S := S1024) hz1, View.readCov_unit_zero (S := S1024x128) _ hz2]
  iexists _; isplitr
  swap; · iexact H5
  ipureintro
  sl_unfold_words
  rw [View.read_writes_eq_canon _ _ _ (fun y => ⟨_, List.mem_cons_self, View.mem_set_unit_zero hz2 inb_S1024x128_S1024x128_0_0 y⟩)]
  rw [View.canon_cons_unit_zero (S := S1024x128) hz2]
  simp only [View.readAt_eq_ld, View.ld_unit_zero (S := S1024x128) hz2, View.ld_unit_zero (S := S1024) hz1, View.readCov_unit_zero (S := S1024x128) _ hz2]

/-! ## The blocks, the accumulator, the invariant -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The segment ids of the node block in view at `t`, and the table rows in view there. -/
abbrev segBlk (c : Dev nD) (t : Fin cfg1.N) : Vec F S1024 .i32 := iblk1 V c 0 t
abbrev tabBlk (c : Dev nD) (t : Fin cfg1.N) : Vec F S1024x128 .bf16 := iblk1 V c 1 t

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Position `n` as a grid point (positions past the grid wrap; only positions inside it are ever used). -/
def pt (n : ℕ) : Fin cfg1.N := ⟨n % cfg1.N, Nat.mod_lt _ (by rw [show cfg1.N = 1024 from N_1]; decide)⟩
theorem pt_val (t : Fin cfg1.N) : pt t.val = t := Fin.ext (Nat.mod_eq_of_lt t.isLt)

/-- THE ACCUMULATOR after the body at position `n`: one step on from zero at the first visit of a node block, one step
    on from what the position before left otherwise. -/
def acc (c : Dev nD) : ℕ → Vec F S1024x128 .f32
  | 0 => k1_pay2 (grid1.coords (pt 0)) (segBlk V c (pt 0)) (k1_pay1 (F := F)) (tabBlk V c (pt 0))
  | n + 1 => k1_pay2 (grid1.coords (pt (n + 1))) (segBlk V c (pt (n + 1)))
      (if (n + 1) % 4 = 0 then k1_pay1 (F := F) else acc c n) (tabBlk V c (pt (n + 1)))

theorem acc_first (c : Dev nD) (t : Fin cfg1.N) (h : t.val % 4 = 0) :
    acc V c t.val = k1_pay2 (grid1.coords t) (segBlk V c t) (k1_pay1 (F := F)) (tabBlk V c t) := by
  obtain ⟨n, hn⟩ := t
  have e : pt n = ⟨n, hn⟩ := pt_val ⟨n, hn⟩
  cases n with
  | zero => show k1_pay2 (grid1.coords (pt 0)) (segBlk V c (pt 0)) (k1_pay1 (F := F)) (tabBlk V c (pt 0)) = _; rw [e]
  | succ n =>
    show k1_pay2 (grid1.coords (pt (n + 1))) (segBlk V c (pt (n + 1))) (if (n + 1) % 4 = 0 then k1_pay1 (F := F) else acc V c n) (tabBlk V c (pt (n + 1))) = _
    rw [e, if_pos h]

theorem acc_next (c : Dev nD) (t : Fin cfg1.N) (h : ¬t.val % 4 = 0) :
    acc V c t.val = k1_pay2 (grid1.coords t) (segBlk V c t) (acc V c (t.val - 1)) (tabBlk V c t) := by
  obtain ⟨n, hn⟩ := t
  have e : pt n = ⟨n, hn⟩ := pt_val ⟨n, hn⟩
  cases n with
  | zero => exact absurd (Nat.zero_mod 4) h
  | succ n =>
    show k1_pay2 (grid1.coords (pt (n + 1))) (segBlk V c (pt (n + 1))) (if (n + 1) % 4 = 0 then k1_pay1 (F := F) else acc V c n) (tabBlk V c (pt (n + 1))) = _
    rw [e, if_neg h]; rfl

/-- The scratch operand: a whole scoped buffer of the kernel's own. -/
abbrev scM : Memref sig .tc .vmem S1024x128 .f32 := Memref.whole cc1_scratch0

/-- The core's other scoped buffers no window of this region stages (the first region's staging buffers): each whole,
    at some contents, untouched here. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

theorem rest_split (c : Dev nD) :
    (Pipeline.scopedRest (Ix := Unit) (Name := ℕ) (U := UR sig nD τ) (Lvl := ℕ) (Val := Elt F) spec1 c : sProp 𝕄)
      ⊢ iprop(others (F := F) c ∗ ∃ d, owns (c : Thread nD τ) scM fullShare d) := by
  rw [scopedRest1_eq]; unfold others; simp only [scM, owns_whole]
  iintro ⟨B0, B1, B2, B3, B4, B5, B6, B7, B8, B9, HS⟩
  isplitr [HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  iexact HS

theorem rest_join (c : Dev nD) :
    iprop(others (F := F) c ∗ ∃ d, owns (c : Thread nD τ) scM fullShare d)
      ⊢ (Pipeline.scopedRest (Ix := Unit) (Name := ℕ) (U := UR sig nD τ) (Lvl := ℕ) (Val := Elt F) spec1 c : sProp 𝕄) := by
  rw [scopedRest1_eq]; unfold others; simp only [scM, owns_whole]
  iintro ⟨⟨B0, B1, B2, B3, B4, B5, B6, B7, B8, B9⟩, HS⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact HS

/-- THE INVARIANT before position `n`: the other scoped buffers at anything, the generator register at some state, and
    the scratch at some contents — which, unless `n` starts a node block, are what position `n − 1` left. -/
def inv (c : Dev nD) (n : ℕ) : sProp 𝕄 :=
  iprop(others (F := F) c ∗ (∃ d, owns (c : Thread nD τ) scM fullShare d ∗ ⌜¬n % 4 = 0 → d = acc V c (n - 1)⌝) ∗ ∃ r, prngReg c r)

/-! ## The pipeline's proof data -/

/-- The proof data of the second pipeline on core `c`: the arrays as the region finds them; after the body at point `t`
    each input's buffer at its block and the output's at the accumulator (consulted only at the last visit of a node
    block, the one point where the window is live and written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc V c t.val
  Φ t := inv V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc V c t.val := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the launch hands the region is the invariant before the first point: position 0 starts a node block. -/
theorem hin1 (c : Dev nD) : Pipeline.ΦA spec1 c ⊢ (dat1 V c).Φ 0 := by
  show Pipeline.ΦA spec1 c ⊢ inv V c 0
  unfold Pipeline.ΦA inv
  iintro ⟨Hs, Hg⟩
  ihave H := rest_split (F := F) c $$ Hs
  icases H with ⟨Ho, ⟨%d, HS⟩⟩
  isplitl [Ho]; · iexact Ho
  isplitl [HS]
  · iexists d; isplitl [HS]; · iexact HS
    ipureintro; intro h; exact absurd (Nat.zero_mod 4) h
  iexact Hg

/-- The invariant at any position gives the class's back: the scratch's contents are forgotten. -/
theorem inv_out (c : Dev nD) (n : ℕ) : inv V c n ⊢ Pipeline.ΦA spec1 c := by
  unfold Pipeline.ΦA inv
  iintro ⟨Ho, ⟨%d, HS, -⟩, Hg⟩
  isplitr [Hg]
  · iapply (rest_join (F := F) c)
    isplitl [Ho]; · iexact Ho
    iexists d; iexact HS
  iexact Hg

theorem hout1 (c : Dev nD) : (dat1 V c).Φ (Fin.last cfg1.N) ⊢ Pipeline.ΦA spec1 c := inv_out V c _

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the kind of visit: the inputs' memrefs hold their blocks; the invariant hands the scratch
    over at what the visit before left (at anything at a first visit) and takes it back one step on; at the last visit
    the output buffer is left at the accumulator, elsewhere as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.castSucc = inv V c t.val from rfl,
    show (dat1 V c).Φ t.succ = inv V c (t.val + 1) from rfl,
    show (dat1 V c).leavesExact 0 t = owns (c : Thread nD τ) (st1_0 t) fullShare ((dat1 V c).after 0 t) from by
      unfold Dat.leavesExact; rw [live1_0 t],
    show (dat1 V c).leavesExact 1 t = owns (c : Thread nD τ) (st1_1 t) fullShare ((dat1 V c).after 1 t) from by
      unfold Dat.leavesExact; rw [live1_1 t],
    after1_0, after1_1]
  unfold inv
  by_cases hl : t.val % 4 = 3
  · have hf : ¬t.val % 4 = 0 := by omega
    rw [show (dat1 V c).leavesExact 2 t = owns (c : Thread nD τ) (st1_2 t) fullShare ((dat1 V c).after 2 t) from by
      unfold Dat.leavesExact; rw [live1_2 t ((last_iff t).mpr hl)], after1_2, acc_next V c t hf]
    iintro ⟨⟨Ho, ⟨%d, HS, %hd⟩, Hg⟩, Hw, ⟨%d0, H0⟩, ⟨%d1, H1⟩, ⟨%d2, H2⟩⟩
    obtain rfl := hd hf
    iapply (run_last c Set.univ (grid1.coords t) _ _ _ _ _ _ _ _ (fun h => hf ((first_iff t).mp h)) ((last_iff t).mpr hl)
      (segBlk V c t) (tabBlk V c t) (acc V c (t.val - 1)) _)
    isplitl [H0]; · iexact H0
    isplitl [H1]; · iexact H1
    isplitl [H2]; · iexists _; iexact H2
    isplitl [HS]; · iexact HS
    iintro ⟨H0, H1, H2, HS⟩
    isplitl [Ho HS Hg]
    · isplitl [Ho]; · iexact Ho
      isplitl [HS]
      · iexists _; isplitl [HS]; · iexact HS
        ipureintro; intro _; rw [Nat.add_sub_cancel, acc_next V c t hf]
      iexact Hg
    isplitl [Hw]; · iexact Hw
    isplitl [H0]; · iexact H0
    isplitl [H1]; · iexact H1
    iexact H2
  · have hnl : ¬isLast (grid1.coords t) := fun h => hl ((last_iff t).mp h)
    rw [Dat.leavesExact_idle (dat1 V c) 2 t (idle1_2 t hnl) (noFlush1_2 t hnl)]
    by_cases hf : t.val % 4 = 0
    · iintro ⟨⟨Ho, ⟨%d, HS, -⟩, Hg⟩, Hw, ⟨%d0, H0⟩, ⟨%d1, H1⟩, ⟨%d2, H2⟩⟩
      iapply (run_first c Set.univ (grid1.coords t) _ _ _ _ _ _ _ _ ((first_iff t).mpr hf) hnl
        (segBlk V c t) (tabBlk V c t) ((dat1 V c).before 2 t d2) _)
      isplitl [H0]; · iexact H0
      isplitl [H1]; · iexact H1
      isplitl [H2]; · iexact H2
      isplitl [HS]; · iexists _; iexact HS
      iintro ⟨H0, H1, H2, HS⟩
      isplitl [Ho HS Hg]
      · isplitl [Ho]; · iexact Ho
        isplitl [HS]
        · iexists _; isplitl [HS]; · iexact HS
          ipureintro; intro _; rw [Nat.add_sub_cancel, acc_first V c t hf]
        iexact Hg
      isplitl [Hw]; · iexact Hw
      isplitl [H0]; · iexact H0
      isplitl [H1]; · iexact H1
      iexists d2; iexact H2
    · iintro ⟨⟨Ho, ⟨%d, HS, %hd⟩, Hg⟩, Hw, ⟨%d0, H0⟩, ⟨%d1, H1⟩, ⟨%d2, H2⟩⟩
      obtain rfl := hd hf
      iapply (run_mid c Set.univ (grid1.coords t) _ _ _ _ _ _ _ _ (fun h => hf ((first_iff t).mp h)) hnl
        (segBlk V c t) (tabBlk V c t) ((dat1 V c).before 2 t d2) (acc V c (t.val - 1)) _)
      isplitl [H0]; · iexact H0
      isplitl [H1]; · iexact H1
      isplitl [H2]; · iexact H2
      isplitl [HS]; · iexact HS
      iintro ⟨H0, H1, H2, HS⟩
      isplitl [Ho HS Hg]
      · isplitl [Ho]; · iexact Ho
        isplitl [HS]
        · iexists _; isplitl [HS]; · iexact HS
          ipureintro; intro _; rw [Nat.add_sub_cancel, acc_next V c t hf]
        iexact Hg
      isplitl [Hw]; · iexact Hw
      isplitl [H0]; · iexact H0
      isplitl [H1]; · iexact H1
      iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Spread

end
-- ==== Proof.Spec.lean ====
/-
  The mathematics both programs compute, on the extended reals.

  A graph `g` has a latent row `z[g, ·]`. Three affine layers, the first two followed by `max · 0`, turn a row
  `r` of 256 numbers into a row of 128 node features:
    rowLatent r k = max (∑ l, r l · Wlp[l,k] + blp[k]) 0            (k < 512)
    rowHidden r j = max (∑ k, rowLatent r k · W1[k,j] + b1[j]) 0    (j < 256)
    rowNode   r f =      ∑ j, rowHidden r j · W2[j,f] + b2[f]        (f < 128)
  Node `n` belongs to graph `seg[n]`; its result row is `rowNode (z[seg[n], ·])`. The layers act on each row by
  itself, so it does not matter whether a row is selected before the last two layers (the reference) or after
  all three (the kernel): both are `rowNode (z[seg[n], ·]) f`.
-/
import Idealize.ShloMosaic.PureOps.Ideal
import Idealize.ShloMosaic.Lib.ValueIdx

noncomputable section

open scoped BigOperators

namespace Cert.Decode

open Idealize.ShloMosaic Idealize.ShloMosaic.ValueIdx

variable (Wlp : FVec Ideal ⟨2, ![256, 512]⟩ .f32) (blp : FVec Ideal ⟨1, ![512]⟩ .f32)
  (W1 : FVec Ideal ⟨2, ![512, 256]⟩ .f32) (b1 : FVec Ideal ⟨1, ![256]⟩ .f32)
  (W2 : FVec Ideal ⟨2, ![256, 128]⟩ .f32) (b2 : FVec Ideal ⟨1, ![128]⟩ .f32)

/-- The first layer of one row, rectified. -/
def rowLatent (r : Fin 256 → EReal) (k : Fin 512) : EReal :=
  max ((∑ l : Fin 256, r l * Wlp (ix2 l k)) + blp (ix1 k)) 0

/-- The second layer of one row, rectified. -/
def rowHidden (r : Fin 256 → EReal) (j : Fin 256) : EReal :=
  max ((∑ k : Fin 512, rowLatent Wlp blp r k * W1 (ix2 k j)) + b1 (ix1 j)) 0

/-- The node features a row decodes to. -/
def rowNode (r : Fin 256 → EReal) (f : Fin 128) : EReal :=
  (∑ j : Fin 256, rowHidden Wlp blp W1 b1 r j * W2 (ix2 j f)) + b2 (ix1 f)

variable (z : FVec Ideal ⟨2, ![4096, 256]⟩ .f32)

/-- The per-graph table: row `g` is graph `g`'s latent row decoded. -/
def table : FVec Ideal ⟨2, ![4096, 128]⟩ .f32 :=
  fun i => rowNode Wlp blp W1 b1 W2 b2 (fun l => z (ix2 ⟨(i 0).val, idx2_lt0 i⟩ l)) ⟨(i 1).val, idx2_lt1 i⟩

/-- Row of a table selected by a word: the row the word names when it names one of the 4096 rows, else zero. -/
def pick (T : FVec Ideal ⟨2, ![4096, 128]⟩ .f32) (s : BitVec 32) (f : Fin 128) : EReal :=
  if h : s.toNat < 4096 then T (ix2 ⟨s.toNat, h⟩ f) else 0

/-- The expected result: node `n`'s row is its graph's row of the table. -/
def expected (seg : IVec ⟨1, ![262144]⟩ 32) : FVec Ideal ⟨2, ![262144, 128]⟩ .f32 :=
  fun i => pick (table Wlp blp W1 b1 W2 b2 z) (seg (ix1 ⟨(i 0).val, idx2_lt0 i⟩)) ⟨(i 1).val, idx2_lt1 i⟩

end Cert.Decode

end
-- ==== Proof.MlpPayload.lean ====
import proofs.«426879_j16260746183171_1_alg».proof.Proof.Gen.KernelIdeal.Skeleton
import proofs.«426879_j16260746183171_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.MlpPayload

open Idealize.ShloMosaic Idealize.ShloMosaic.ValueIdx Cert.KernelIdeal Cert.KernelIdeal.Gen

/-! ## A bias row broadcast over the rows -/

/-- A vector of `n` numbers laid out as one row and repeated over `m` rows reads, at (p, k), its entry `k`. -/
private theorem biasRow_apply {α : Type} {m n : ℕ} (v : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (p : Fin m) (k : Fin n) :
    broadcastTo ⟨2, ![m, n]⟩ (shapeCast ⟨2, ![1, n]⟩ v h1) h2 (ix2 p k) = v (ix1 k) := by
  rw [broadcastTo_1b_ab_apply, shapeCast_a_1a_apply]

/-! ## The three products at an index

Each product contracts axis 1 of its left operand with axis 0 of its right operand; its one-axis contraction index is
re-indexed by the position `l`, and the operands' indices at (p, j) and `l` are (p, l) and (l, j). -/

/-! ### The first product, [1024, 256] × [256, 512] -/

/-- Axis 0 of the left operand's index is the result's row. -/
private theorem lhsA_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- Axis 1 of the left operand's index is the contraction position. -/
private theorem lhsA_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
/-- Axis 0 of the right operand's index is the contraction position. -/
private theorem rhsA_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
/-- Axis 1 of the right operand's index is the result's column. -/
private theorem rhsA_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- Into a zero accumulator the product at (p, j) is the plain sum over the 256 contraction positions. -/
private theorem matmulA_apply (x : FVec Ideal S1024x256 .bf16) (y : FVec Ideal S256x512 .bf16) (p : Fin 1024) (j : Fin 512) :
    matmul (F := Ideal) dot_S1024x256_S256x512_S1024x512_1_0_0_1_n_n none x y (constant (F := Ideal) S1024x512 .f32 0x00000000#32) (ix2 p j)
      = ∑ l : Fin 256, x (ix2 p l) * y (ix2 l j) := by
  simp only [matmul]
  rw [Ideal.matmul_constant_zero_apply, ← Equiv.sum_comp (contrEquiv1 dot_S1024x256_S256x512_S1024x512_1_0_0_1_n_n 256 rfl rfl).symm]
  refine Finset.sum_congr rfl fun l _ => ?_
  have hl := contrEquiv1_symm_val dot_S1024x256_S256x512_S1024x512_1_0_0_1_n_n 256 rfl rfl l
  have el : dot_S1024x256_S256x512_S1024x512_1_0_0_1_n_n.lhsIdx (ix2 p j) ((contrEquiv1 dot_S1024x256_S256x512_S1024x512_1_0_0_1_n_n 256 rfl rfl).symm l) = ix2 p l := funext fun a => Fin.ext (by
    match a with
    | ⟨0, _⟩ => exact lhsA_0 _ _
    | ⟨1, _⟩ => exact (lhsA_1 _ _).trans hl)
  have er : dot_S1024x256_S256x512_S1024x512_1_0_0_1_n_n.rhsIdx (ix2 p j) ((contrEquiv1 dot_S1024x256_S256x512_S1024x512_1_0_0_1_n_n 256 rfl rfl).symm l) = ix2 l j := funext fun a => Fin.ext (by
    match a with
    | ⟨0, _⟩ => exact (rhsA_0 _ _).trans hl
    | ⟨1, _⟩ => exact rhsA_1 _ _)
  rw [el, er]

/-! ### The second product, [1024, 512] × [512, 256] -/

/-- Axis 0 of the left operand's index is the result's row. -/
private theorem lhsB_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- Axis 1 of the left operand's index is the contraction position. -/
private theorem lhsB_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
/-- Axis 0 of the right operand's index is the contraction position. -/
private theorem rhsB_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
/-- Axis 1 of the right operand's index is the result's column. -/
private theorem rhsB_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- Into a zero accumulator the product at (p, j) is the plain sum over the 512 contraction positions. -/
private theorem matmulB_apply (x : FVec Ideal S1024x512 .bf16) (y : FVec Ideal S512x256 .bf16) (p : Fin 1024) (j : Fin 256) :
    matmul (F := Ideal) dot_S1024x512_S512x256_S1024x256_1_0_0_1_n_n none x y (constant (F := Ideal) S1024x256 .f32 0x00000000#32) (ix2 p j)
      = ∑ l : Fin 512, x (ix2 p l) * y (ix2 l j) := by
  simp only [matmul]
  rw [Ideal.matmul_constant_zero_apply, ← Equiv.sum_comp (contrEquiv1 dot_S1024x512_S512x256_S1024x256_1_0_0_1_n_n 512 rfl rfl).symm]
  refine Finset.sum_congr rfl fun l _ => ?_
  have hl := contrEquiv1_symm_val dot_S1024x512_S512x256_S1024x256_1_0_0_1_n_n 512 rfl rfl l
  have el : dot_S1024x512_S512x256_S1024x256_1_0_0_1_n_n.lhsIdx (ix2 p j) ((contrEquiv1 dot_S1024x512_S512x256_S1024x256_1_0_0_1_n_n 512 rfl rfl).symm l) = ix2 p l := funext fun a => Fin.ext (by
    match a with
    | ⟨0, _⟩ => exact lhsB_0 _ _
    | ⟨1, _⟩ => exact (lhsB_1 _ _).trans hl)
  have er : dot_S1024x512_S512x256_S1024x256_1_0_0_1_n_n.rhsIdx (ix2 p j) ((contrEquiv1 dot_S1024x512_S512x256_S1024x256_1_0_0_1_n_n 512 rfl rfl).symm l) = ix2 l j := funext fun a => Fin.ext (by
    match a with
    | ⟨0, _⟩ => exact (rhsB_0 _ _).trans hl
    | ⟨1, _⟩ => exact rhsB_1 _ _)
  rw [el, er]

/-! ### The third product, [1024, 256] × [256, 128] -/

/-- Axis 0 of the left operand's index is the result's row. -/
private theorem lhsC_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
/-- Axis 1 of the left operand's index is the contraction position. -/
private theorem lhsC_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
/-- Axis 0 of the right operand's index is the contraction position. -/
private theorem rhsC_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
/-- Axis 1 of the right operand's index is the result's column. -/
private theorem rhsC_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- Into a zero accumulator the product at (p, j) is the plain sum over the 256 contraction positions. -/
private theorem matmulC_apply (x : FVec Ideal S1024x256 .bf16) (y : FVec Ideal S256x128 .bf16) (p : Fin 1024) (j : Fin 128) :
    matmul (F := Ideal) dot_S1024x256_S256x128_S1024x128_1_0_0_1_n_n none x y (constant (F := Ideal) S1024x128 .f32 0x00000000#32) (ix2 p j)
      = ∑ l : Fin 256, x (ix2 p l) * y (ix2 l j) := by
  simp only [matmul]
  rw [Ideal.matmul_constant_zero_apply, ← Equiv.sum_comp (contrEquiv1 dot_S1024x256_S256x128_S1024x128_1_0_0_1_n_n 256 rfl rfl).symm]
  refine Finset.sum_congr rfl fun l _ => ?_
  have hl := contrEquiv1_symm_val dot_S1024x256_S256x128_S1024x128_1_0_0_1_n_n 256 rfl rfl l
  have el : dot_S1024x256_S256x128_S1024x128_1_0_0_1_n_n.lhsIdx (ix2 p j) ((contrEquiv1 dot_S1024x256_S256x128_S1024x128_1_0_0_1_n_n 256 rfl rfl).symm l) = ix2 p l := funext fun a => Fin.ext (by
    match a with
    | ⟨0, _⟩ => exact lhsC_0 _ _
    | ⟨1, _⟩ => exact (lhsC_1 _ _).trans hl)
  have er : dot_S1024x256_S256x128_S1024x128_1_0_0_1_n_n.rhsIdx (ix2 p j) ((contrEquiv1 dot_S1024x256_S256x128_S1024x128_1_0_0_1_n_n 256 rfl rfl).symm l) = ix2 l j := funext fun a => Fin.ext (by
    match a with
    | ⟨0, _⟩ => exact (rhsC_0 _ _).trans hl
    | ⟨1, _⟩ => exact rhsC_1 _ _)
  rw [el, er]

/-! ## The three layers at an index

Each layer is a product into a zero accumulator, plus a bias row; the first two are then rectified against a zero
splat. The format changes between layers are the identity on the extended reals, and the zero word denotes `0`. -/

/-- The first layer at (p, k): `max (∑ l, x[p,l] · w[l,k] + b[k]) 0`. -/
private theorem latent_apply (x : FVec Ideal S1024x256 .f32) (w : FVec Ideal S256x512 .f32) (b : FVec Ideal S512 .f32)
    (hb : FTy.bits .bf16 < FTy.bits .f32) (h1 : S512.ShapeCasts S1x512) (h2 : S1x512.Broadcasts S1024x512)
    (p : Fin 1024) (k : Fin 512) :
    maximumf (addf (matmul (F := Ideal) dot_S1024x256_S256x512_S1024x512_1_0_0_1_n_n none (truncf .bf16 x hb) (truncf .bf16 w hb)
          (constant (F := Ideal) S1024x512 .f32 0x00000000#32))
        (broadcastTo S1024x512 (shapeCast S1x512 b h1) h2))
      (broadcast S1024x512 (Scalar.ofBits (F := Ideal) .f32 0x00000000#32)) (ix2 p k)
      = max ((∑ l : Fin 256, x (ix2 p l) * w (ix2 l k)) + b (ix1 k)) 0 := by
  rw [maximumf_apply, addf_apply, matmulA_apply, biasRow_apply, broadcast_apply]
  simp only [truncf_apply, Ideal.ofBits_def, Ideal.ofBits_zero_f32]

/-- The second layer at (p, j): `max (∑ k, h[p,k] · w[k,j] + c[j]) 0`. -/
private theorem hidden_apply (h : FVec Ideal S1024x512 .f32) (w : FVec Ideal S512x256 .f32) (c : FVec Ideal S256 .f32)
    (hb : FTy.bits .bf16 < FTy.bits .f32) (h1 : S256.ShapeCasts S1x256) (h2 : S1x256.Broadcasts S1024x256)
    (p : Fin 1024) (j : Fin 256) :
    maximumf (addf (matmul (F := Ideal) dot_S1024x512_S512x256_S1024x256_1_0_0_1_n_n none (truncf .bf16 h hb) (truncf .bf16 w hb)
          (constant (F := Ideal) S1024x256 .f32 0x00000000#32))
        (broadcastTo S1024x256 (shapeCast S1x256 c h1) h2))
      (broadcast S1024x256 (Scalar.ofBits (F := Ideal) .f32 0x00000000#32)) (ix2 p j)
      = max ((∑ k : Fin 512, h (ix2 p k) * w (ix2 k j)) + c (ix1 j)) 0 := by
  rw [maximumf_apply, addf_apply, matmulB_apply, biasRow_apply, broadcast_apply]
  simp only [truncf_apply, Ideal.ofBits_def, Ideal.ofBits_zero_f32]

/-- The third layer at (p, f), not rectified: `∑ j, h[p,j] · w[j,f] + c[f]`. -/
private theorem node_apply (h : FVec Ideal S1024x256 .f32) (w : FVec Ideal S256x128 .f32) (c : FVec Ideal S128 .f32)
    (hb : FTy.bits .bf16 < FTy.bits .f32) (h1 : S128.ShapeCasts S1x128) (h2 : S1x128.Broadcasts S1024x128)
    (p : Fin 1024) (f : Fin 128) :
    addf (matmul (F := Ideal) dot_S1024x256_S256x128_S1024x128_1_0_0_1_n_n none (truncf .bf16 h hb) (truncf .bf16 w hb)
          (constant (F := Ideal) S1024x128 .f32 0x00000000#32))
        (broadcastTo S1024x128 (shapeCast S1x128 c h1) h2) (ix2 p f)
      = (∑ j : Fin 256, h (ix2 p j) * w (ix2 j f)) + c (ix1 f) := by
  rw [addf_apply, matmulC_apply, biasRow_apply]
  simp only [truncf_apply]

/-! ## The payload at an index -/

/-- Entry (p, q) of the first region's stored block: row p of the input block decoded by the three layers. -/
theorem k0_pay1_apply (x0 : Vec Ideal S1024x256 .f32) (w : Vec Ideal S256x512 .f32) (b : Vec Ideal S512 .f32)
    (w1 : Vec Ideal S512x256 .f32) (c1 : Vec Ideal S256 .f32) (w2 : Vec Ideal S256x128 .f32) (c2 : Vec Ideal S128 .f32)
    (p : Fin 1024) (q : Fin 128) :
    k0_pay1 (F := Ideal) x0 w b w1 c1 w2 c2 (ix2 p q)
      = Cert.Decode.rowNode w b w1 c1 w2 c2 (fun l => x0 (ix2 p l)) q := by
  unfold Gen.k0_pay1
  rw [node_apply]
  simp only [hidden_apply, latent_apply]
  unfold Cert.Decode.rowNode Cert.Decode.rowHidden Cert.Decode.rowLatent
  rfl

end Cert.KernelIdeal.MlpPayload

end
-- ==== Proof.KTable.lean ====
import proofs.«426879_j16260746183171_1_alg».proof.Proof.FrameRun
import proofs.«426879_j16260746183171_1_alg».proof.Proof.MlpPayload
import proofs.«426879_j16260746183171_1_alg».proof.Proof.Spec
import Idealize.ShloMosaic.Lib.Pipeline.Value
import Idealize.ShloMosaic.Lib.ValueIdx

noncomputable section

open scoped BigOperators

set_option maxRecDepth 16384

namespace Cert.KernelIdeal.TableValue

open Idealize.ShloMosaic Idealize.ShloMosaic.TcCoe Idealize.ShloMosaic.ValueIdx Idealize.SL.Sem
open Cert.KernelIdeal Cert.KernelIdeal.Gen Cert.KernelIdeal.FrameRun
open Idealize.ShloMosaic.Pipeline (Dat)

variable (V : (c : Dev nD) → (b : Ref sig .tc) → Buf (Elt Ideal) ((c : Thread nD τ).loc b))

/-! ## The zero offsets of the body's whole-buffer accesses -/

private theorem zeros2 : (![0, 0] : Fin 2 → ℕ) = fun _ => 0 := funext fun a => by fin_cases a <;> rfl
private theorem zeros1 : (![0] : Fin 1 → ℕ) = fun _ => 0 := funext fun a => by fin_cases a <;> rfl

/-! ## The block indices over the four grid points

The latent array and the result array are cut into four blocks of 1024 rows, block `t` at point `t`; every weight and
bias array is one block. -/

private theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

private theorem point_lt (t : Fin cfg0.N) : t.val < 4 :=
  lt_of_lt_of_eq t.isLt (show cfg0.N = 4 from N_0)

/-- Row `p` of point `t`'s block is row `1024·t + p` of the array. -/
private abbrev row (t : Fin cfg0.N) (p : Fin 1024) : Fin 4096 :=
  ⟨1024 * t.val + p.val, by have := point_lt t; have := p.isLt; omega⟩

/-! ## The input blocks, read off their arrays -/

/-- The first layer's weights: the one block is the array. -/
private theorem wlpBlock_eq (c : Dev nD) (t : Fin cfg0.N) : iblk0 (F := Ideal) V c 1 t = V c main_arg2 := by
  obtain ⟨-, -, e0, e1, -⟩ := blockIndex_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The latent block at point `t`: its row `p` is row `1024·t + p` of the latent array. -/
private theorem latentBlock_apply (c : Dev nD) (t : Fin cfg0.N) (p : Fin 1024) (l : Fin 256) :
    iblk0 (F := Ideal) V c 0 t (ix2 p l) = V c main_arg0 (ix2 (row t p) l) := by
  obtain ⟨e0, e1, -⟩ := blockIndex_facts t
  show V c main_arg0 (((cfg0.win 0).blk t).view.emb (ix2 p l)) = V c main_arg0 (ix2 (row t p) l)
  refine congrArg (V c main_arg0) (funext fun a => Fin.ext ?_)
  match a with
  | ⟨0, _⟩ => show win0_0.index t (0 : Fin 2) * 1024 + 1 * p.val = 1024 * t.val + p.val; omega
  | ⟨1, _⟩ => show win0_0.index t (1 : Fin 2) * 256 + 1 * l.val = l.val; omega

/-- The first layer's bias: the one block is the array. -/
private theorem blpBlock_eq (c : Dev nD) (t : Fin cfg0.N) : iblk0 (F := Ideal) V c 2 t = V c main_arg3 := by
  obtain ⟨-, -, -, -, e0, -⟩ := blockIndex_facts t
  funext y
  show V c main_arg3 (((cfg0.win 2).blk t).view.emb y) = V c main_arg3 y
  refine congrArg (V c main_arg3) (funext fun a => Fin.ext ?_)
  match a with
  | ⟨0, _⟩ => show win0_2.index t (0 : Fin 1) * 512 + 1 * (y 0).val = (y 0).val; omega

/-- The second layer's weights: the one block is the array. -/
private theorem w1Block_eq (c : Dev nD) (t : Fin cfg0.N) : iblk0 (F := Ideal) V c 3 t = V c main_arg4 := by
  obtain ⟨-, -, -, -, -, e0, e1, -⟩ := blockIndex_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 512 + 1 * (y 0).val = (y 0).val; omega
  | ⟨1, _⟩ => show win0_3.index t (1 : Fin 2) * 256 + 1 * (y 1).val = (y 1).val; omega

/-- The second layer's bias: the one block is the array. -/
private theorem b1Block_eq (c : Dev nD) (t : Fin cfg0.N) : iblk0 (F := Ideal) V c 4 t = V c main_arg5 := by
  obtain ⟨-, -, -, -, -, -, -, e0, -⟩ := blockIndex_facts t
  funext y
  show V c main_arg5 (((cfg0.win 4).blk t).view.emb y) = V c main_arg5 y
  refine congrArg (V c main_arg5) (funext fun a => Fin.ext ?_)
  match a with
  | ⟨0, _⟩ => show win0_4.index t (0 : Fin 1) * 256 + 1 * (y 0).val = (y 0).val; omega

/-- The third layer's weights: the one block is the array. -/
private theorem w2Block_eq (c : Dev nD) (t : Fin cfg0.N) : iblk0 (F := Ideal) V c 5 t = V c main_arg6 := by
  obtain ⟨-, -, -, -, -, -, -, -, e0, e1, -⟩ := blockIndex_facts t
  funext y
  show V c main_arg6 (((cfg0.win 5).blk t).view.emb y) = V c main_arg6 y
  refine congrArg (V c main_arg6) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- The third layer's bias: the one block is the array. -/
private theorem b2Block_eq (c : Dev nD) (t : Fin cfg0.N) : iblk0 (F := Ideal) V c 6 t = V c main_arg7 := by
  obtain ⟨-, -, -, -, -, -, -, -, -, -, e0, -⟩ := blockIndex_facts t
  funext y
  show V c main_arg7 (((cfg0.win 6).blk t).view.emb y) = V c main_arg7 y
  refine congrArg (V c main_arg7) (funext fun a => Fin.ext ?_)
  match a with
  | ⟨0, _⟩ => show win0_6.index t (0 : Fin 1) * 128 + 1 * (y 0).val = (y 0).val; omega

/-! ## What a point writes back -/

/-- The table at row `g` and feature `f` is graph `g`'s latent row decoded, at `f`. -/
private theorem table_apply (Wlp : FVec Ideal ⟨2, ![256, 512]⟩ .f32) (blp : FVec Ideal ⟨1, ![512]⟩ .f32)
    (W1 : FVec Ideal ⟨2, ![512, 256]⟩ .f32) (b1 : FVec Ideal ⟨1, ![256]⟩ .f32)
    (W2 : FVec Ideal ⟨2, ![256, 128]⟩ .f32) (b2 : FVec Ideal ⟨1, ![128]⟩ .f32) (z : FVec Ideal ⟨2, ![4096, 256]⟩ .f32)
    (g : Fin 4096) (f : Fin 128) :
    Cert.Decode.table Wlp blp W1 b1 W2 b2 z (ix2 g f) = Cert.Decode.rowNode Wlp blp W1 b1 W2 b2 (fun l => z (ix2 g l)) f := rfl

/-- Entry (p, q) of point `t`'s result block sits at row `1024·t + p`, column `q` of the result array. -/
private theorem resultBlock_emb (t : Fin cfg0.N) (p : Fin 1024) (q : Fin 128) :
    ((cfg0.win 7).blk t).view.emb (ix2 p q) = ix2 (row t p) q := by
  obtain ⟨-, -, -, -, -, -, -, -, -, -, -, e0, e1⟩ := blockIndex_facts t
  refine funext fun a => Fin.ext ?_
  match a with
  | ⟨0, _⟩ => show win0_7.index t (0 : Fin 2) * 1024 + 1 * p.val = 1024 * t.val + p.val; omega
  | ⟨1, _⟩ => show win0_7.index t (1 : Fin 2) * 128 + 1 * q.val = q.val; omega

/-- WHAT POINT `t` WRITES BACK is block `t` of the table of the arrays as the region finds them. -/
private theorem flushed_table (c : Dev nD) (t : Fin cfg0.N) :
    (dat0 (F := Ideal) V c).flushed 7 t = ((cfg0.win 7).blk t).view.read (Elt Ideal)
      (Cert.Decode.table (V c main_arg2) (V c main_arg3) (V c main_arg4) (V c main_arg5) (V c main_arg6) (V c main_arg7) (V c main_arg0)) := by
  show (cfg0.win 7).cut (grid0.coords t) ((dat0 V c).after 7 t) = _
  rw [after0_7]
  unfold out0_7
  rw [View.canon_unit_zero zeros2]
  simp only [View.ld_unit_zero (S := S1024x256) zeros2, View.ld_unit_zero (S := S256x512) zeros2, View.ld_unit_zero (S := S512) zeros1,
    View.ld_unit_zero (S := S512x256) zeros2, View.ld_unit_zero (S := S256) zeros1, View.ld_unit_zero (S := S256x128) zeros2,
    View.ld_unit_zero (S := S128) zeros1]
  rw [wlpBlock_eq, blpBlock_eq, w1Block_eq, b1Block_eq, w2Block_eq, b2Block_eq]
  funext j
  obtain ⟨p, q, rfl⟩ : ∃ (p : Fin 1024) (q : Fin 128), j = ix2 p q := ⟨j 0, j 1, eq_ix2 j⟩
  show k0_pay1 (F := Ideal) (iblk0 V c 0 t) (V c main_arg2) (V c main_arg3) (V c main_arg4) (V c main_arg5) (V c main_arg6) (V c main_arg7) (ix2 p q)
    = Cert.Decode.table (V c main_arg2) (V c main_arg3) (V c main_arg4) (V c main_arg5) (V c main_arg6) (V c main_arg7) (V c main_arg0)
        (((cfg0.win 7).blk t).view.emb (ix2 p q))
  rw [resultBlock_emb, table_apply]
  refine (Cert.KernelIdeal.MlpPayload.k0_pay1_apply _ _ _ _ _ _ _ p q).trans ?_
  simp only [latentBlock_apply]

/-! ## The four blocks tile the result array -/

/-- An index of the result array is in point `t`'s block iff each coordinate is in the block's range on its axis. -/
private theorem mem_resultBlock (t : Fin cfg0.N) (i : S4096x128.Idx) :
    i ∈ ((cfg0.win 7).blk t).view.set ↔ ∀ a : Fin 2, win0_7.index t a * S1024x128.size a ≤ (i a).val
      ∧ (i a).val < win0_7.index t a * S1024x128.size a + S1024x128.size a := by
  show i ∈ ((View.whole main_v0).slice (win0_7.rect t)).set ↔ _
  rw [View.set_slice_whole, Rect.mem_set_unit]
  exact Iff.rfl

/-- Every index of the result array is in a block that is written back: row `r` in the block of point `r / 1024`. -/
private theorem rows_covered (i : S4096x128.Idx) :
    ∃ t : Fin cfg0.N, (cfg0.win 7).flush t = true ∧ i ∈ ((cfg0.win 7).blk t).view.set := by
  have hi0 : (i 0).val < 4096 := (i 0).isLt
  have hi1 : (i 1).val < 128 := (i 1).isLt
  obtain ⟨t, ht⟩ : ∃ t : Fin cfg0.N, t.val = (i 0).val / 1024 :=
    ⟨⟨(i 0).val / 1024, by rw [show cfg0.N = 4 from N_0]; omega⟩, rfl⟩
  obtain ⟨-, -, -, -, -, -, -, -, -, -, -, e0, e1⟩ := blockIndex_facts t
  refine ⟨t, flush0_7 t, ?_⟩
  rw [mem_resultBlock]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 128 ≤ (i 1).val ∧ (i 1).val < win0_7.index t (1 : Fin 2) * 128 + 128
    omega

/-! ## The result array -/

/-- THE RESULT ARRAY of the first region: the per-graph table — row `g` is graph `g`'s latent row through the three layers.
    Point `t` writes back rows 1024·t … 1024·t + 1023, each the payload of the point's latent block and the (whole) weight
    and bias arrays; the four blocks tile the array. -/
theorem table_eq (c : Dev nD) :
    (dat0 (F := Ideal) V c).arrAt 7 cfg0.N
      = Cert.Decode.table (V c main_arg2) (V c main_arg3) (V c main_arg4) (V c main_arg5) (V c main_arg6) (V c main_arg7) (V c main_arg0) := by
  exact (dat0 V c).arrAt_eq_of_cover 7 _ (fun t _ => flushed_table V c t) rows_covered

end Cert.KernelIdeal.TableValue

end
-- ==== Proof.OneHot.lean ====
import proofs.«426879_j16260746183171_1_alg».proof.Proof.Gen.KernelIdeal.Skeleton
import proofs.«426879_j16260746183171_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.KernelIdeal.OneHot

open Idealize.ShloMosaic Idealize.ShloMosaic.ValueIdx Cert.KernelIdeal Cert.KernelIdeal.Gen

/-- The accumulator's reset value is zero everywhere. -/
theorem k1_pay1_apply (i : S1024x128.Idx) : k1_pay1 (F := Ideal) i = 0 := by
  unfold k1_pay1
  rw [shapeCast_self]
  exact Ideal.ofBits_zero_f32

/-- A vector of 1024 words, written as a column and repeated along 1024 columns, reads at (r, c) its r-th word. -/
private theorem col_apply (seg : IVec S1024 32) (r c : Fin 1024) :
    broadcastTo S1024x1024 (shapeCast S1024x1 seg shapeCasts_S1024_S1024x1) broadcasts_S1024x1_S1024x1024 (ix2 r c)
      = seg (ix1 r) := by
  rw [broadcastTo_apply _ _ (ix2 r c) (ix2 r (0 : Fin 1)) (fun a => by
    match a with
    | ⟨0, _⟩ => rfl
    | ⟨1, _⟩ => rfl)]
  exact shapeCast_apply seg _ _ (ix1 r) (by
    rw [Shape.rowMajor_val_two, Shape.rowMajor_val_one]
    show r.val = r.val * 1 + 0
    omega)

/-- The word 1024·k + c, for k below 4 and c below 1024, computed in 32 bits without wrapping. -/
private theorem word_toNat (k : ℕ) (hk : k < 4) (c : Fin 1024) :
    (IntOp.addi (Scalar.muli (BitVec.ofNat 32 k) 1024#32) (BitVec.ofNat 32 (0 * 1024 + c.val))).toNat = 1024 * k + c.val := by
  have hc := c.isLt
  show (BitVec.ofNat 32 k * 1024#32 + BitVec.ofNat 32 (0 * 1024 + c.val)).toNat = _
  rw [BitVec.toNat_add, BitVec.toNat_mul, BitVec.toNat_ofNat, BitVec.toNat_ofNat, BitVec.toNat_ofNat]
  omega

/-- A compared bit, widened to 32 bits, read as a signed integer and then as an extended real: one when the two words
    are equal, zero when they are not. -/
private theorem bit_cast (a b : BitVec 32) :
    (((((IntOp.cmpi .eq a b).setWidth 32).toInt : ℤ) : ℝ) : EReal) = if a = b then 1 else 0 := by
  by_cases h : a = b
  · rw [if_pos h, StableHlo.Predicate.cmpi_eq_iff.mpr h]
    simp
  · rw [if_neg h, eq_zero_of_ne_one (fun h1 => h (StableHlo.Predicate.cmpi_eq_iff.mp h1))]
    simp

/-- The one-hot factor at row r, column c of the block k: one when the word seg[r] is 1024·k + c, else zero. -/
private theorem onehot_apply (k : ℕ) (hk : k < 4) (seg : IVec S1024 32) (r c : Fin 1024) :
    (truncf .bf16 (sitofp .f32 (extui 32 (cmpi .eq
        (broadcastTo S1024x1024 (shapeCast S1024x1 seg shapeCasts_S1024_S1024x1) broadcasts_S1024x1_S1024x1024)
        (addi (broadcast S1024x1024 (Scalar.muli (BitVec.ofNat 32 k) 1024#32)) (iota .tc S1024x1024 32 [1] iota_S1024x1024_d1_w32)))
        natLt_1_32)) bitsLt_bf16_f32 : FVec Ideal S1024x1024 .bf16) (ix2 r c)
      = if (seg (ix1 r)).toNat = 1024 * k + c.val then 1 else 0 := by
  rw [truncf_apply, sitofp_apply, extui_apply]
  show (((((IntOp.cmpi .eq
      (broadcastTo S1024x1024 (shapeCast S1024x1 seg shapeCasts_S1024_S1024x1) broadcasts_S1024x1_S1024x1024 (ix2 r c))
      (IntOp.addi (Scalar.muli (BitVec.ofNat 32 k) 1024#32) (BitVec.ofNat 32 (0 * 1024 + c.val)))).setWidth 32).toInt : ℤ) : ℝ) : EReal) = _
  rw [col_apply, bit_cast]
  have hw := word_toNat k hk c
  by_cases h : seg (ix1 r) = IntOp.addi (Scalar.muli (BitVec.ofNat 32 k) 1024#32) (BitVec.ofNat 32 (0 * 1024 + c.val))
  · rw [if_pos h, if_pos (by rw [h]; exact hw)]
  · rw [if_neg h, if_neg (fun h' => h (BitVec.eq_of_toNat_eq (h'.trans hw.symm)))]

/-- A sum over the 1024 columns of a block in which column c carries the factor "s is 1024·k + c": at most one column
    survives, the column s − 1024·k when s lies in the block. Zero and one absorb and preserve every extended real,
    the infinite ones included. -/
private theorem sum_onehot (s k : ℕ) (g : Fin 1024 → EReal) :
    ∑ c : Fin 1024, (if s = 1024 * k + c.val then (1 : EReal) else 0) * g c
      = if h : 1024 * k ≤ s ∧ s < 1024 * k + 1024 then g ⟨s - 1024 * k, by omega⟩ else 0 := by
  by_cases h : 1024 * k ≤ s ∧ s < 1024 * k + 1024
  · rw [dif_pos h]
    rw [Finset.sum_eq_single_of_mem (⟨s - 1024 * k, by omega⟩ : Fin 1024) (Finset.mem_univ _) (fun c _ hc => by
      rw [if_neg (fun hs => hc (Fin.ext (by show c.val = s - 1024 * k; omega))), zero_mul])]
    rw [if_pos (by show s = 1024 * k + (s - 1024 * k); omega), one_mul]
  · rw [dif_neg h]
    exact Finset.sum_eq_zero fun c _ => by
      rw [if_neg (fun hs => h (by have := c.isLt; omega)), zero_mul]

/-! The operand indices of the 1024 × 1024 by 1024 × 128 contraction: at output (i₀, i₁) and contraction coordinate q the
    left operand is read at (i₀, q) and the right one at (q, i₁). -/
private theorem lhs_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
private theorem lhs_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
private theorem rhs_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
private theorem rhs_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- One accumulation step at grid point `co` (its second coordinate `k = co 1` names the block of 1024 table rows the point
    sees): entry (r, f) grows by the table block's row `seg[r] − 1024·k` when that word lies in the block, and by nothing
    otherwise — the one-hot row times the block is a sum with at most one non-zero term. -/
theorem k1_pay2_apply (co : grid1.Coords) (seg : Vec Ideal S1024 .i32) (prev : Vec Ideal S1024x128 .f32) (og : Vec Ideal S1024x128 .bf16)
    (r : Fin 1024) (f : Fin 128) :
    k1_pay2 (F := Ideal) co seg prev og (ix2 r f)
      = prev (ix2 r f) + (if h : 1024 * (co 1).val ≤ (seg (ix1 r)).toNat ∧ (seg (ix1 r)).toNat < 1024 * (co 1).val + 1024
          then og (ix2 ⟨(seg (ix1 r)).toNat - 1024 * (co 1).val, by omega⟩ f) else 0) := by
  have hk : (co 1).val < 4 := (co 1).isLt
  unfold k1_pay2
  dsimp only
  -- the two casts to the same shape are identities; the sum reads entry by entry
  rw [shapeCast_self, shapeCast_self, addf_apply]
  refine congrArg (prev (ix2 r f) + ·) ?_
  -- the product into the zero accumulator is the sum over the contraction coordinate c of onehot[r, c] · og[c, f]
  simp only [matmul]
  rw [Ideal.matmul_constant_zero_apply, ← Equiv.sum_comp (contrEquiv1 dot_S1024x1024_S1024x128_S1024x128_1_0_0_1_n_n 1024 rfl rfl).symm]
  rw [← sum_onehot (seg (ix1 r)).toNat (co 1).val (fun c => og (ix2 c f))]
  refine Finset.sum_congr rfl fun c _ => ?_
  have hc := contrEquiv1_symm_val dot_S1024x1024_S1024x128_S1024x128_1_0_0_1_n_n 1024 rfl rfl c
  have el : dot_S1024x1024_S1024x128_S1024x128_1_0_0_1_n_n.lhsIdx (ix2 r f) ((contrEquiv1 dot_S1024x1024_S1024x128_S1024x128_1_0_0_1_n_n 1024 rfl rfl).symm c) = ix2 r c := funext fun a => Fin.ext (by
    match a with
    | ⟨0, _⟩ => exact lhs_0 _ _
    | ⟨1, _⟩ => exact (lhs_1 _ _).trans hc)
  have er : dot_S1024x1024_S1024x128_S1024x128_1_0_0_1_n_n.rhsIdx (ix2 r f) ((contrEquiv1 dot_S1024x1024_S1024x128_S1024x128_1_0_0_1_n_n 1024 rfl rfl).symm c) = ix2 c f := funext fun a => Fin.ext (by
    match a with
    | ⟨0, _⟩ => exact (rhs_0 _ _).trans hc
    | ⟨1, _⟩ => exact rhs_1 _ _)
  rw [el, er, onehot_apply (co 1).val hk seg r c]

end Cert.KernelIdeal.OneHot

end
-- ==== Proof.KSpread.lean ====
import proofs.«426879_j16260746183171_1_alg».proof.Proof.Region1
import proofs.«426879_j16260746183171_1_alg».proof.Proof.OneHot
import proofs.«426879_j16260746183171_1_alg».proof.Proof.Spec
import Idealize.ShloMosaic.Lib.Pipeline.Value
import Idealize.ShloMosaic.Lib.ValueIdx

noncomputable section

open scoped BigOperators

set_option maxRecDepth 16384

namespace Cert.KernelIdeal.SpreadValue

open Idealize.ShloMosaic Idealize.ShloMosaic.TcCoe Idealize.ShloMosaic.ValueIdx Idealize.SL.Sem
open Cert.KernelIdeal Cert.KernelIdeal.Gen Cert.KernelIdeal.Spread
open Idealize.ShloMosaic.Pipeline (Dat)

variable (V : (c : Dev nD) → (b : Ref sig .tc) → Buf (Elt Ideal) ((c : Thread nD τ).loc b))

/-! ## The grid's geometry, decided once

Point `t` of the 256 × 4 grid is node block `t / 4` visited with table block `t % 4`. -/

private theorem idx_facts : ∀ t : Fin cfg1.N, win1_0.index t (0 : Fin 1) = t.val / 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

private theorem coord1 : ∀ t : Fin cfg1.N, (grid1.coords t 1).val = t.val % 4 :=
  (by decide +kernel : ∀ t : Fin grid1.N, _)

private theorem tlt (t : Fin cfg1.N) : t.val < 1024 := lt_of_lt_of_eq t.isLt N_1

/-! ## A block read is the array at the embedded index -/

/-- Word r of the node block in view at `t` is word 1024·(t / 4) + r of the segment-id array. -/
private theorem seg_read (c : Dev nD) (t : Fin cfg1.N) (r : Fin 1024) :
    segBlk V c t (ix1 r) = V c main_arg1 (ix1 ⟨1024 * (t.val / 4) + r.val, by have := tlt t; have := r.isLt; omega⟩) := by
  show V c main_arg1 (((cfg1.win 0).blk t).view.emb (ix1 r)) = V c main_arg1 _
  refine congrArg (V c main_arg1) (funext fun a => Fin.ext ?_)
  match a with
  | ⟨0, _⟩ =>
    show win1_0.index t (0 : Fin 1) * 1024 + 1 * r.val = 1024 * (t.val / 4) + r.val
    rw [(idx_facts t).1]; omega

/-- Row a of the table block in view at `t` is row 1024·(t % 4) + a of the table. -/
private theorem tab_read (c : Dev nD) (T : FVec Ideal ⟨2, ![4096, 128]⟩ .f32) (hT : V c main_v1 = T) (t : Fin cfg1.N)
    (a : Fin 1024) (f : Fin 128) :
    tabBlk V c t (ix2 a f) = T (ix2 ⟨1024 * (t.val % 4) + a.val, by have := a.isLt; omega⟩ f) := by
  subst hT
  show V c main_v1 (((cfg1.win 1).blk t).view.emb (ix2 a f)) = V c main_v1 _
  refine congrArg (V c main_v1) (funext fun b => Fin.ext ?_)
  match b with
  | ⟨0, _⟩ =>
    show win1_1.index t (0 : Fin 2) * 1024 + 1 * a.val = 1024 * (t.val % 4) + a.val
    rw [(idx_facts t).2.1]; omega
  | ⟨1, _⟩ =>
    show win1_1.index t (1 : Fin 2) * 128 + 1 * f.val = f.val
    rw [(idx_facts t).2.2.1]; omega

/-! ## One visit, read at an entry

The visit of node block `t / 4` with table block `k = t % 4` adds, at node r, row s of the table when the node's segment
word s lies in that block (1024·k ≤ s < 1024·k + 1024), and nothing otherwise. -/

private theorem step_apply (c : Dev nD) (T : FVec Ideal ⟨2, ![4096, 128]⟩ .f32) (hT : V c main_v1 = T) (t : Fin cfg1.N)
    (prev : Vec Ideal S1024x128 .f32) (r : Fin 1024) (f : Fin 128) (s : ℕ) (hs : (segBlk V c t (ix1 r)).toNat = s) :
    k1_pay2 (F := Ideal) (grid1.coords t) (segBlk V c t) prev (tabBlk V c t) (ix2 r f)
      = prev (ix2 r f) + (if h : 1024 * (t.val % 4) ≤ s ∧ s < 1024 * (t.val % 4) + 1024
          then T (ix2 ⟨s, by omega⟩ f) else 0) := by
  rw [Cert.KernelIdeal.OneHot.k1_pay2_apply]
  refine congrArg (prev (ix2 r f) + ·) ?_
  have hk := coord1 t
  by_cases h : 1024 * (t.val % 4) ≤ s ∧ s < 1024 * (t.val % 4) + 1024
  · rw [dif_pos h, dif_pos (by rw [hs, hk]; exact h)]
    refine (tab_read V c T hT t _ f).trans ?_
    refine congrArg (fun x => T (ix2 x f)) (Fin.ext ?_)
    show 1024 * (t.val % 4) + ((segBlk V c t (ix1 r)).toNat - 1024 * (grid1.coords t 1).val) = s
    rw [hs, hk]; omega
  · rw [dif_neg h, dif_neg (by rw [hs, hk]; exact h)]

/-- Four visits from zero, one per table block: at most one of them adds anything, and together they leave the row the
    word names — or zero when it names none of the 4096. -/
private theorem four_steps (T : FVec Ideal ⟨2, ![4096, 128]⟩ .f32) (w : BitVec 32) (f : Fin 128) (k0 k1 k2 k3 : ℕ)
    (h0 : k0 = 0) (h1 : k1 = 1) (h2 : k2 = 2) (h3 : k3 = 3) :
    ((((0 : EReal)
        + (if h : 1024 * k0 ≤ w.toNat ∧ w.toNat < 1024 * k0 + 1024 then T (ix2 ⟨w.toNat, by omega⟩ f) else 0))
        + (if h : 1024 * k1 ≤ w.toNat ∧ w.toNat < 1024 * k1 + 1024 then T (ix2 ⟨w.toNat, by omega⟩ f) else 0))
        + (if h : 1024 * k2 ≤ w.toNat ∧ w.toNat < 1024 * k2 + 1024 then T (ix2 ⟨w.toNat, by omega⟩ f) else 0))
        + (if h : 1024 * k3 ≤ w.toNat ∧ w.toNat < 1024 * k3 + 1024 then T (ix2 ⟨w.toNat, by omega⟩ f) else 0)
      = Cert.Decode.pick T w f := by
  subst h0 h1 h2 h3
  unfold Cert.Decode.pick
  split_ifs <;> first | (exfalso; omega) | simp

/-! ## The accumulator after the fourth visit

The points t − 3, t − 2, t − 1, t (t ≡ 3 mod 4) are the four visits of node block `t / 4`, with table blocks 0, 1, 2, 3; all
four see the same segment words. -/

private theorem acc_last_apply (c : Dev nD) (T : FVec Ideal ⟨2, ![4096, 128]⟩ .f32) (hT : V c main_v1 = T) (t : Fin cfg1.N)
    (h3 : t.val % 4 = 3) (r : Fin 1024) (f : Fin 128) :
    acc V c t.val (ix2 r f)
      = Cert.Decode.pick T (V c main_arg1 (ix1 ⟨1024 * (t.val / 4) + r.val, by have := tlt t; have := r.isLt; omega⟩)) f := by
  have ht := tlt t
  have hr := r.isLt
  obtain ⟨t2, e2⟩ : ∃ u : Fin cfg1.N, u.val = t.val - 1 := ⟨⟨t.val - 1, lt_of_lt_of_eq (by omega) N_1.symm⟩, rfl⟩
  obtain ⟨t1, e1⟩ : ∃ u : Fin cfg1.N, u.val = t.val - 2 := ⟨⟨t.val - 2, lt_of_lt_of_eq (by omega) N_1.symm⟩, rfl⟩
  obtain ⟨t0, e0⟩ : ∃ u : Fin cfg1.N, u.val = t.val - 3 := ⟨⟨t.val - 3, lt_of_lt_of_eq (by omega) N_1.symm⟩, rfl⟩
  obtain ⟨w, hw⟩ : ∃ w : BitVec 32, V c main_arg1 (ix1 ⟨1024 * (t.val / 4) + r.val, by omega⟩) = w := ⟨_, rfl⟩
  rw [hw]
  -- every visit of the node block reads the word w at node r
  have hseg : ∀ u : Fin cfg1.N, u.val / 4 = t.val / 4 → (segBlk V c u (ix1 r)).toNat = w.toNat := fun u hu => by
    rw [seg_read V c u r, ← hw]
    exact congrArg (fun x => (V c main_arg1 (ix1 x)).toNat) (Fin.ext (by show 1024 * (u.val / 4) + r.val = 1024 * (t.val / 4) + r.val; rw [hu]))
  rw [acc_next V c t (by omega), step_apply V c T hT t _ r f w.toNat (hseg t rfl)]
  rw [show t.val - 1 = t2.val from e2.symm, acc_next V c t2 (by omega), step_apply V c T hT t2 _ r f w.toNat (hseg t2 (by omega))]
  rw [show t2.val - 1 = t1.val from by omega, acc_next V c t1 (by omega), step_apply V c T hT t1 _ r f w.toNat (hseg t1 (by omega))]
  rw [show t1.val - 1 = t0.val from by omega, acc_first V c t0 (by omega), step_apply V c T hT t0 _ r f w.toNat (hseg t0 (by omega)),
    Cert.KernelIdeal.OneHot.k1_pay1_apply]
  exact four_steps T w f (t0.val % 4) (t1.val % 4) (t2.val % 4) (t.val % 4) (by omega) (by omega) (by omega) (by omega)

/-! ## From the blocks to the array -/

/-- The same table row read at equal coordinates. -/
private theorem pick_congr (T : FVec Ideal ⟨2, ![4096, 128]⟩ .f32) (A : IVec ⟨1, ![262144]⟩ 32) {a a' b b' : ℕ}
    (ha : a < 262144) (ha' : a' < 262144) (hb : b < 128) (hb' : b' < 128) (ea : a = a') (eb : b = b') :
    Cert.Decode.pick T (A (ix1 ⟨a, ha⟩)) ⟨b, hb⟩ = Cert.Decode.pick T (A (ix1 ⟨a', ha'⟩)) ⟨b', hb'⟩ := by
  subst ea eb; rfl

/-- WHAT A FLUSHING POINT WRITES BACK — the accumulator after the fourth visit of its node block — is its block of the
    expected array: row r of the block is node 1024·(t / 4) + r. -/
private theorem flushed_eq (c : Dev nD) (T : FVec Ideal ⟨2, ![4096, 128]⟩ .f32) (hT : V c main_v1 = T) (t : Fin cfg1.N)
    (hf : (cfg1.win 2).flush t = true) :
    (dat1 (F := Ideal) V c).flushed 2 t = ((cfg1.win 2).blk t).view.read (Elt Ideal)
      (fun i => Cert.Decode.pick T (V c main_arg1 (ix1 ⟨(i 0).val, idx2_lt0 i⟩)) ⟨(i 1).val, idx2_lt1 i⟩) := by
  have h3 : t.val % 4 = 3 := (flush1_2 t).mp hf
  have ht := tlt t
  show (cfg1.win 2).cut (grid1.coords t) ((dat1 V c).after 2 t) = _
  rw [after1_2]
  funext j
  have hj0 : (j 0).val < 1024 := (j 0).isLt
  have hj1 : (j 1).val < 128 := (j 1).isLt
  have hx : (cfg1.win 2).xinj (grid1.coords t) j = ix2 (⟨(j 0).val, hj0⟩ : Fin 1024) (⟨(j 1).val, hj1⟩ : Fin 128) := by
    funext a
    match a with
    | ⟨0, _⟩ => rfl
    | ⟨1, _⟩ => rfl
  show acc V c t.val ((cfg1.win 2).xinj (grid1.coords t) j) = _
  rw [hx, acc_last_apply V c T hT t h3]
  have e0 : ((((cfg1.win 2).blk t).view.emb j) 0).val = 1024 * (t.val / 4) + (j 0).val := by
    show win1_2.index t (0 : Fin 2) * 1024 + 1 * (j 0).val = _
    rw [(idx_facts t).2.2.2.1]; omega
  have e1 : ((((cfg1.win 2).blk t).view.emb j) 1).val = (j 1).val := by
    show win1_2.index t (1 : Fin 2) * 128 + 1 * (j 1).val = _
    rw [(idx_facts t).2.2.2.2]; omega
  exact pick_congr T (V c main_arg1) _ _ _ _ e0.symm e1.symm

/-- An index of the result array is in point `t`'s block iff each coordinate is in the block's range on its axis. -/
private theorem mem_blk (t : Fin cfg1.N) (i : S262144x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v2).slice (win1_2.rect t)).set ↔ _
  rw [View.set_slice_whole, Rect.mem_set_unit]
  exact Iff.rfl

/-- Every node row lies in the block written back after the fourth visit of its node block. -/
private theorem cover (i : S262144x128.Idx) :
    ∃ t : Fin cfg1.N, (cfg1.win 2).flush t = true ∧ i ∈ ((cfg1.win 2).blk t).view.set := by
  have hi0 : (i 0).val < 262144 := (i 0).isLt
  have hi1 : (i 1).val < 128 := (i 1).isLt
  obtain ⟨t, et⟩ : ∃ u : Fin cfg1.N, u.val = 4 * ((i 0).val / 1024) + 3 :=
    ⟨⟨4 * ((i 0).val / 1024) + 3, lt_of_lt_of_eq (by omega) N_1.symm⟩, rfl⟩
  refine ⟨t, (flush1_2 t).mpr (by omega), ?_⟩
  rw [mem_blk]
  intro a
  match a with
  | ⟨0, _⟩ =>
    show win1_2.index t (0 : Fin 2) * 1024 ≤ (i 0).val ∧ (i 0).val < win1_2.index t (0 : Fin 2) * 1024 + 1024
    rw [(idx_facts t).2.2.2.1]; omega
  | ⟨1, _⟩ =>
    show win1_2.index t (1 : Fin 2) * 128 ≤ (i 1).val ∧ (i 1).val < win1_2.index t (1 : Fin 2) * 128 + 128
    rw [(idx_facts t).2.2.2.2]; omega

/-- THE RESULT ARRAY of the second region: node `n`'s row is the row of the table (as the region finds it) that the node's
    segment id names — zero if the id names none. Each node block is written back once, after its fourth visit, with the
    accumulator: four one-hot steps from zero, of which at most one (the visit whose table block holds the named row)
    adds anything. -/
theorem spread_eq (c : Dev nD) (T : FVec Ideal ⟨2, ![4096, 128]⟩ .f32) (hT : V c main_v1 = T) :
    (dat1 (F := Ideal) V c).arrAt 2 cfg1.N
      = fun i => Cert.Decode.pick T (V c main_arg1 (ix1 ⟨(i 0).val, idx2_lt0 i⟩)) ⟨(i 1).val, idx2_lt1 i⟩ := by
  exact (dat1 (F := Ideal) V c).arrAt_eq_of_cover 2 _ (fun t hf => flushed_eq V c T hT t hf) cover

end Cert.KernelIdeal.SpreadValue

end
-- ==== Proof.KResult.lean ====
/-
  The idealized kernel's result array, as one function of the argument arrays: the expected result.

  The second region leaves in the result array the rows of the table IT FOUND, picked by the segment ids it found.
  The table it found is the first region's result through the one host operation between the regions, a change of
  float format, which on the extended reals is the identity; and the first region's result is the per-graph table of
  the argument arrays. The segment ids it found are the launch contents.
-/
import proofs.«426879_j16260746183171_1_alg».proof.Proof.FrameRun
import proofs.«426879_j16260746183171_1_alg».proof.Proof.KTable
import proofs.«426879_j16260746183171_1_alg».proof.Proof.KSpread
import proofs.«426879_j16260746183171_1_alg».proof.Proof.Spec

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.FrameRun Cert.KernelIdeal.Spread

variable (m : (ℓ : Loc nD τ sig) → Buf (Elt Ideal) ℓ) (ρ : Dev nD → PrngReg)

/-- The table the second region finds is the per-graph table of the argument arrays. -/
theorem found_table (c : Dev nD) :
    V2 m ρ c main_v1
      = Cert.Decode.table (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg0)) := by
  rw [V2_main_v1]
  show (fun i => (dat0 (V0 m ρ) c).arrAt 7 cfg0.N i) = _
  exact Cert.KernelIdeal.TableValue.table_eq (V0 m ρ) c

/-- THE KERNEL'S RESULT: what the second region's write-backs leave is the expected result of the argument arrays. -/
theorem result_eq (c : Dev nD) :
    (dat1 (V2 m ρ) c).arrAt 2 cfg1.N
      = Cert.Decode.expected (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg0))
          (m ((c : Thread nD τ).loc main_arg1)) := by
  rw [Cert.KernelIdeal.SpreadValue.spread_eq (V2 m ρ) c _ (found_table m ρ c), V2_main_arg1]
  rfl

end Cert.KernelIdeal.Result

end
-- ==== Proof.RefSide.lean ====
import proofs.«426879_j16260746183171_1_alg».proof.Proof.Gen.ReferenceIdeal.Read
import proofs.«426879_j16260746183171_1_alg».proof.Pre_finite_inputs
import proofs.«426879_j16260746183171_1_alg».proof.Proof.Gen.Pre_finite_inputs
import proofs.«426879_j16260746183171_1_alg».proof.Proof.Spec
import Idealize.ShloMosaic.Lib.ReduceAll
import Idealize.ShloMosaic.Lib.StableHlo.Predicate

noncomputable section

open scoped BigOperators

namespace Cert.RefSide

open Idealize.ShloMosaic Idealize.ShloMosaic.ValueIdx Cert.ReferenceIdeal Cert.ReferenceIdeal.Gen

/-! ## The gather, read by hand

The reference selects rows of the rectified first layer (a 4096 × 512 table) by the segment ids: operand axis 0 is
collapsed and carries the start index, operand axis 1 is the offset axis, copied whole. -/

/-- The reference's gather, under a short name. -/
private abbrev GD : GatherDims S4096x512 S262144x1 S262144x512 := gather_S4096x512_S262144x1_S262144x512_1_0_n_n_0_1_1512

/-- The gather at `(n, k)`: column `k` of the table's row named by the start word at `(n, 0)`, that word read signed and
    clamped into `[0, 4095]`. -/
private theorem gather_row {α : Type} (x : S4096x512.Idx → α) (idx : IVec S262144x1 32) (n : Fin 262144) (k : Fin 512) :
    Host.gather GD x idx (ix2 n k)
      = x (ix2 (⟨min (idx (ix2 n (0 : Fin 1))).toInt.toNat 4095, by omega⟩ : Fin 4096) k) := by
  unfold Host.gather
  congr 1
  funext a
  refine Fin.ext ?_
  match a with
  | ⟨0, _⟩ =>
    -- the gathered axis: no batching coordinate, no offset coordinate (the axis is collapsed), only the clamped start
    show GD.start (ix2 n k) idx 0 + GD.batchCoord (ix2 n k) 0 + GD.offCoord (ix2 n k) 0 = min (idx (ix2 n (0 : Fin 1))).toInt.toNat 4095
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S4096x512.rank) ∈ GD.startIndexMap from List.mem_singleton.mpr rfl)]
    have hsi : GD.siIdx (ix2 n k) ⟨List.idxOf (0 : Fin S4096x512.rank) GD.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    -- the offset axis: the start index map does not name it, so its start is 0, and the offset is the result's column
    show GD.start (ix2 n k) idx 1 + GD.batchCoord (ix2 n k) 1 + GD.offCoord (ix2 n k) 1 = k.val
    rw [GatherDims.batchCoord_eq_zero _ _ _ List.not_mem_nil]
    unfold GatherDims.start
    rw [dif_neg (show ¬ (1 : Fin S4096x512.rank) ∈ GD.startIndexMap from by decide)]
    unfold GatherDims.offCoord
    rw [dif_pos (show (1 : Fin S4096x512.rank) ∈ GD.sKept from by decide)]
    simp only [Nat.zero_add, Nat.add_zero]
    rfl

/-- The start word of a segment id `s` in [0, 4096): the correction `s < 0 ? s + 4096 : s` leaves `s`, and the clamp
    into [0, 4095] leaves its value. -/
private theorem start_word (s : BitVec 32) (hs : s.toNat < 4096) :
    min (Scalar.select (IntOp.cmpi .slt s 0#32) (IntOp.addi s 4096#32) s).toInt.toNat 4095 = s.toNat := by
  have hti : s.toInt = s.toNat := StableHlo.Predicate.toInt_eq_toNat_of_lt (by omega)
  have hc : ¬ IntOp.cmpi .slt s 0#32 = 1#1 := by
    rw [IntOp.cmpi_slt, hti, show (0#32 : BitVec 32).toInt = 0 from by decide]; omega
  rw [ValueIdx.eq_zero_of_ne_one hc, ValueIdx.select_zero, hti, Int.toNat_natCast]
  omega

/-- The start indices' row `n` is node `n`. -/
private theorem idx_v10 (n : Fin 262144) : Read.idx_main_v10 (ix2 n (0 : Fin 1)) = ix1 n :=
  funext fun a => Fin.ext (by match a with | ⟨0, _⟩ => rfl)

/-- The gathered array at `(n, k)` is the rectified first layer at `(seg n, k)`. -/
private theorem val_main_v11_row (x0 : FVec Ideal S4096x256 .f32) (x1 : IVec S262144 32) (x2 : FVec Ideal S256x512 .f32)
    (x3 : FVec Ideal S512 .f32) (hseg : ∀ n : Fin 262144, (x1 (ix1 n)).toNat < 4096) (n : Fin 262144) (k : Fin 512) :
    Read.val_main_v11 (F := Ideal) x0 x1 x2 x3 (ix2 n k)
      = Read.val_main_v4 (F := Ideal) x0 x2 x3 (ix2 (⟨(x1 (ix1 n)).toNat, hseg n⟩ : Fin 4096) k) := by
  have hw : Read.val_main_v10 (F := Ideal) x1 (ix2 n (0 : Fin 1))
      = Scalar.select (IntOp.cmpi .slt (x1 (ix1 n)) 0#32) (IntOp.addi (x1 (ix1 n)) 4096#32) (x1 (ix1 n)) := by
    rw [Read.val_main_v10_apply, idx_v10, Read.val_main_v9_apply, Read.val_main_v6_apply, Read.val_main_v8_apply,
      Read.val_main_v5_apply, Read.val_main_v7_apply, Read.val_main_c_apply, Read.val_main_c_0_apply]
  unfold Read.val_main_v11
  generalize Read.val_main_v4 (F := Ideal) x0 x2 x3 = T
  refine (gather_row T _ n k).trans ?_
  exact congrArg (fun g : Fin 4096 => T (ix2 g k)) (Fin.ext (by
    show min (Read.val_main_v10 (F := Ideal) x1 (ix2 n (0 : Fin 1))).toInt.toNat 4095 = (x1 (ix1 n)).toNat
    rw [hw]; exact start_word _ (hseg n)))

/-! ## The three layers, row by row -/

/-- The rectified first layer at `(g, k)` is the first layer of graph `g`'s latent row. -/
private theorem latent_eq (x0 : FVec Ideal S4096x256 .f32) (x2 : FVec Ideal S256x512 .f32) (x3 : FVec Ideal S512 .f32)
    (g : Fin 4096) (k : Fin 512) :
    Read.val_main_v4 (F := Ideal) x0 x2 x3 (ix2 g k) = Cert.Decode.rowLatent x2 x3 (fun l => x0 (ix2 g l)) k := by
  have e1 : ∀ l : Fin 256, Read.lidx_main_v0 (ix2 g k) l = ix2 g l := fun l =>
    funext fun a => Fin.ext (by match a with | ⟨0, _⟩ => rfl | ⟨1, _⟩ => rfl)
  have e2 : ∀ l : Fin 256, Read.ridx_main_v0 (ix2 g k) l = ix2 l k := fun l =>
    funext fun a => Fin.ext (by match a with | ⟨0, _⟩ => rfl | ⟨1, _⟩ => rfl)
  have e3 : Read.idx_main_v1 (Read.idx_main_v2 (ix2 g k)) = ix1 k :=
    funext fun a => Fin.ext (by match a with | ⟨0, _⟩ => rfl)
  rw [Read.val_main_v4_apply, Read.val_main_v3_apply, Read.val_main_v0_apply, Read.val_main_v2_apply, Read.val_main_v1_apply,
    Read.val_main_call0_v0_apply, Read.val_main_call0_cst_apply]
  unfold Cert.Decode.rowLatent
  simp only [Ideal.maximumf_def, Ideal.addf_def, Ideal.ofBits_def, Ideal.ofBits_zero_f32, e1, e2, e3]

/-- The rectified second layer at `(n, j)` is the second layer of the latent row of node `n`'s graph. -/
private theorem hidden_eq (x0 : FVec Ideal S4096x256 .f32) (x1 : IVec S262144 32) (x2 : FVec Ideal S256x512 .f32)
    (x3 : FVec Ideal S512 .f32) (x4 : FVec Ideal S512x256 .f32) (x5 : FVec Ideal S256 .f32)
    (hseg : ∀ n : Fin 262144, (x1 (ix1 n)).toNat < 4096) (n : Fin 262144) (j : Fin 256) :
    Read.val_main_v16 (F := Ideal) x0 x1 x2 x3 x4 x5 (ix2 n j)
      = Cert.Decode.rowHidden x2 x3 x4 x5 (fun l => x0 (ix2 (⟨(x1 (ix1 n)).toNat, hseg n⟩ : Fin 4096) l)) j := by
  have e1 : ∀ k : Fin 512, Read.lidx_main_v12 (ix2 n j) k = ix2 n k := fun k =>
    funext fun a => Fin.ext (by match a with | ⟨0, _⟩ => rfl | ⟨1, _⟩ => rfl)
  have e2 : ∀ k : Fin 512, Read.ridx_main_v12 (ix2 n j) k = ix2 k j := fun k =>
    funext fun a => Fin.ext (by match a with | ⟨0, _⟩ => rfl | ⟨1, _⟩ => rfl)
  have e3 : Read.idx_main_v13 (Read.idx_main_v14 (ix2 n j)) = ix1 j :=
    funext fun a => Fin.ext (by match a with | ⟨0, _⟩ => rfl)
  rw [Read.val_main_v16_apply, Read.val_main_v15_apply, Read.val_main_v12_apply, Read.val_main_v14_apply, Read.val_main_v13_apply,
    Read.val_main_call1_v0_apply, Read.val_main_call1_cst_apply]
  unfold Cert.Decode.rowHidden
  simp only [Ideal.maximumf_def, Ideal.addf_def, Ideal.ofBits_def, Ideal.ofBits_zero_f32, e1, e2, e3,
    val_main_v11_row x0 x1 x2 x3 hseg, latent_eq]

/-- The last layer at `(n, f)` is the node features the latent row of node `n`'s graph decodes to. -/
private theorem node_eq (x0 : FVec Ideal S4096x256 .f32) (x1 : IVec S262144 32) (x2 : FVec Ideal S256x512 .f32)
    (x3 : FVec Ideal S512 .f32) (x4 : FVec Ideal S512x256 .f32) (x5 : FVec Ideal S256 .f32) (x6 : FVec Ideal S256x128 .f32)
    (x7 : FVec Ideal S128 .f32) (hseg : ∀ n : Fin 262144, (x1 (ix1 n)).toNat < 4096) (n : Fin 262144) (f : Fin 128) :
    Read.val_main_v20 (F := Ideal) x0 x1 x2 x3 x4 x5 x6 x7 (ix2 n f)
      = Cert.Decode.rowNode x2 x3 x4 x5 x6 x7 (fun l => x0 (ix2 (⟨(x1 (ix1 n)).toNat, hseg n⟩ : Fin 4096) l)) f := by
  have e1 : ∀ j : Fin 256, Read.lidx_main_v17 (ix2 n f) j = ix2 n j := fun j =>
    funext fun a => Fin.ext (by match a with | ⟨0, _⟩ => rfl | ⟨1, _⟩ => rfl)
  have e2 : ∀ j : Fin 256, Read.ridx_main_v17 (ix2 n f) j = ix2 j f := fun j =>
    funext fun a => Fin.ext (by match a with | ⟨0, _⟩ => rfl | ⟨1, _⟩ => rfl)
  have e3 : Read.idx_main_v18 (Read.idx_main_v19 (ix2 n f)) = ix1 f :=
    funext fun a => Fin.ext (by match a with | ⟨0, _⟩ => rfl)
  rw [Read.val_main_v20_apply, Read.val_main_v17_apply, Read.val_main_v19_apply, Read.val_main_v18_apply]
  unfold Cert.Decode.rowNode
  simp only [Ideal.addf_def, e1, e2, e3, hidden_eq x0 x1 x2 x3 x4 x5 hseg]

/-- The reference's result is the expected one when every segment id names a graph: the index correction
    (`s < 0 ? s + 4096 : s`) and the gather's clamp are then inert, the gathered row is the graph's rectified first
    layer, and the last two layers act on it row by row. -/
theorem ref_eq (x0 : FVec Ideal S4096x256 .f32) (x1 : IVec S262144 32) (x2 : FVec Ideal S256x512 .f32) (x3 : FVec Ideal S512 .f32)
    (x4 : FVec Ideal S512x256 .f32) (x5 : FVec Ideal S256 .f32) (x6 : FVec Ideal S256x128 .f32) (x7 : FVec Ideal S128 .f32)
    (hseg : ∀ n : Fin 262144, (x1 (ix1 n)).toNat < 4096) :
    Cert.ReferenceIdeal.Read.val_main_v20 (F := Ideal) x0 x1 x2 x3 x4 x5 x6 x7 = Cert.Decode.expected x2 x3 x4 x5 x6 x7 x0 x1 := by
  funext i
  obtain ⟨n, f, rfl⟩ : ∃ (n : Fin 262144) (f : Fin 128), i = ix2 n f := ⟨i 0, i 1, eq_ix2 i⟩
  rw [node_eq x0 x1 x2 x3 x4 x5 x6 x7 hseg n f]
  -- the expected value at `(n, f)`: the table's row picked by node `n`'s segment id, which names a row
  show _ = Cert.Decode.pick (Cert.Decode.table x2 x3 x4 x5 x6 x7 x0) (x1 (ix1 n)) f
  unfold Cert.Decode.pick
  rw [dif_pos (hseg n)]
  rfl

/-- The precondition's last two conjuncts, read back: every segment id is a word in [0, 4096). -/
theorem seg_in_range {F : FTy → Type} [FloatOps F] [Cert.Pre_finite_inputs.Facts]
    (a0 : FVec F Cert.Pre_finite_inputs.S4096x256 .f32) (a1 : IVec Cert.Pre_finite_inputs.S262144 32) (a2 : FVec F Cert.Pre_finite_inputs.S256x512 .f32)
    (a3 : FVec F Cert.Pre_finite_inputs.S512 .f32) (a4 : FVec F Cert.Pre_finite_inputs.S512x256 .f32) (a5 : FVec F Cert.Pre_finite_inputs.S256 .f32)
    (a6 : FVec F Cert.Pre_finite_inputs.S256x128 .f32) (a7 : FVec F Cert.Pre_finite_inputs.S128 .f32)
    (h : Cert.Pre_finite_inputs.fn (F := F) a0 a1 a2 a3 a4 a5 a6 a7 = fun _ => 1#1) :
    ∀ n : Fin 262144, (a1 (ix1 n)).toNat < 4096 := by
  intro n
  haveI : Subsingleton Cert.Pre_finite_inputs.S_.Idx := ⟨fun a b => funext fun d => d.elim0⟩
  -- the precondition at the scalar result's one index, its operations in view
  have h0 := congrFun h ValueIdx.ix0
  dsimp only [Cert.Pre_finite_inputs.fn, Cert.Pre_finite_inputs.fn_part1, Cert.Pre_finite_inputs.fn_part2] at h0
  -- the conjunction is nested to the left: its last conjunct is `all (seg < 4096)`, the one before `all (seg ≥ 0)`
  obtain ⟨h1, hlt⟩ := (IntOp.andi_eq_one).1 h0
  obtain ⟨_, hge⟩ := (IntOp.andi_eq_one).1 h1
  -- each `all` holds at node `n`
  have hge' := Host.reduce_andi_all _ _ _ _ _ hge (ix1 n)
  have hlt' := Host.reduce_andi_all _ _ _ _ _ hlt (ix1 n)
  change IntOp.cmpi .sge (a1 (ix1 n)) 0#32 = 1#1 at hge'
  change IntOp.cmpi .slt (a1 (ix1 n)) 4096#32 = 1#1 at hlt'
  rw [IntOp.cmpi_sge, show (0#32 : BitVec 32).toInt = 0 from by decide] at hge'
  rw [IntOp.cmpi_slt, show (4096#32 : BitVec 32).toInt = 4096 from by decide] at hlt'
  -- a word whose signed value lies in [0, 4096) has that same unsigned value
  generalize a1 (ix1 n) = w at hge' hlt' ⊢
  have hw := BitVec.toInt_eq_toNat_cond w
  have hlt32 := w.isLt
  split at hw <;> omega

end Cert.RefSide

end
-- ==== Proof.lean ====
/-
  The certificate's claims.

  The kernel decodes every graph's latent row ONCE (three affine layers, the first two rectified), keeps the 4096 × 128
  table, and gives every node the table row its segment id names, by a one-hot matrix product accumulated over four
  blocks of table rows. The reference selects each node's rectified first-layer row and applies the last two layers node
  by node. The layers act on each row by itself, so both results are `rowNode (z[seg[n], ·])` (Proof/Spec.lean) at every
  node `n` whose segment id names a graph — the precondition's last two conjuncts, 0 ≤ seg[n] < 4096 — where the
  reference's index correction and the gather's clamp are inert and exactly one one-hot term survives. No law of the
  extended reals beyond 0 · x = 0, 1 · x = x and 0 + x = x is used, so the finiteness conjuncts are never opened.
  The frames: each kernel program's run through its two regions (Proof/FrameRun.lean over Proof/Region1.lean, and the
  word-level program's copies), the reference's generated run with the result dropped.
-/
import proofs.«426879_j16260746183171_1_alg».proof.Defs
import proofs.«426879_j16260746183171_1_alg».proof.Proof.Gen.Kernel
import proofs.«426879_j16260746183171_1_alg».proof.Proof.Gen.KernelIdeal
import proofs.«426879_j16260746183171_1_alg».proof.Proof.Gen.ReferenceIdeal
import proofs.«426879_j16260746183171_1_alg».proof.Proof.Gen.Pre_finite_inputs
import proofs.«426879_j16260746183171_1_alg».proof.Proof.Gen.ReferenceIdeal.Run
import proofs.«426879_j16260746183171_1_alg».proof.Proof.Gen.ReferenceIdeal.Read
import proofs.«426879_j16260746183171_1_alg».proof.Proof.KFrameRun
import proofs.«426879_j16260746183171_1_alg».proof.Proof.FrameRun
import proofs.«426879_j16260746183171_1_alg».proof.Proof.KResult
import proofs.«426879_j16260746183171_1_alg».proof.Proof.RefSide
import Idealize.ShloMosaic.Adequacy
import Idealize.ShloMosaic.Init

noncomputable section

namespace Cert.Proof

open Idealize.ShloMosaic Idealize.ShloMosaic.TcCoe Idealize.SL.Sem

/-- The programs' and the precondition's stated side conditions, as the generated modules prove them. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

theorem frame_k : Cert.frame_Kernel := fun m ρ _ => Cert.Kernel.FrameRun.frame (F := Bits) m ρ

theorem frame_ki : Cert.frame_KernelIdeal := fun m ρ _ => Cert.KernelIdeal.FrameRun.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the expected result of the (agreeing) argument arrays. -/
theorem algebraic : Cert.algebraic_KernelIdeal_ReferenceIdeal := by
  intro m ρ m' ρ' hpre hagree
  refine ⟨fun c => Cert.Decode.expected (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Result.result_eq m ρ c), (h c).2⟩)
      (Cert.KernelIdeal.FrameRun.run_result (F := Ideal) m ρ)
  · refine (θ_run Cert.ReferenceIdeal.defs _ _).mono (fun _ h c => ⟨?_, (h c).2⟩)
      (Cert.ReferenceIdeal.Value.run (F := Ideal) m' ρ')
    have hseg := Cert.RefSide.seg_in_range _ _ _ _ _ _ _ _ (hpre c)
    obtain ⟨e0, e1, e2, e3, e4, e5, e6, e7⟩ := hagree c
    rw [(h c).1, Cert.ReferenceIdeal.Read.val_main_v20_eq, e0, e1, e2, e3, e4, e5, e6, e7]
    exact Cert.RefSide.ref_eq _ _ _ _ _ _ _ _ hseg

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
